-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg1 : IVec S2x600000 32) (main_v48 : IVec S_ 1) (main_v50 : IVec S2x600000 1) : IVec S_ 1 :=
  let main_c_19 : IVec S_ 32 := constantI S_ 32 50000#32
  let main_v51 : IVec S2x600000 32 := broadcastInDim S2x600000 ![] bcast_S_S2x600000 main_c_19
  let main_v52 : IVec S2x600000 1 := cmpi .slt main_arg1 main_v51
  let main_v53 : IVec S2x600000 1 := andi main_v50 main_v52
  let main_c_20 : IVec S_ 1 := constantI S_ 1 1#1
  let main_v54 : IVec S_ 1 := (fun x v => Host.reduce IntOp.andi x v reducesTo_S2x600000_S_d0_1 h_S_) main_v53 main_c_20
  let main_v55 : IVec S_ 1 := andi main_v48 main_v54
  main_v55

def fn_part2 {F : FTy → Type} [FloatOps F] (main_arg1 : IVec S2x600000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 4294917296#32
  let main_v49 : IVec S2x600000 32 := broadcastInDim S2x600000 ![] bcast_S_S2x600000 main_c_18
  let main_v50 : IVec S2x600000 1 := cmpi .sge main_arg1 main_v49
  fn_part3 (F := F) main_arg1 main_v48 main_v50

def fn_part1 {F : FTy → Type} [FloatOps F] (main_arg1 : IVec S2x600000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x600000 32) (main_arg2 : FVec F S600000x128 .f32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S4000x128 : Shape := ⟨2, ![4000, 128]⟩
abbrev S4000x384 : Shape := ⟨2, ![4000, 384]⟩
abbrev S1x128 : Shape := ⟨2, ![1, 128]⟩
abbrev S50000 : Shape := ⟨1, ![50000]⟩
abbrev S50000x1 : Shape := ⟨2, ![50000, 1]⟩
abbrev S5000x128 : Shape := ⟨2, ![5000, 128]⟩
abbrev S5000x256 : Shape := ⟨2, ![5000, 256]⟩

abbrev nBuf : Space → Nat
  | .hbm => 79
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S1, .i32⟩
  | .hbm, ⟨24, _⟩ => ⟨S_, .i32⟩
  | .hbm, ⟨25, _⟩ => ⟨S600000x1, .i32⟩
  | .hbm, ⟨26, _⟩ => ⟨S600000x1, .i1⟩
  | .hbm, ⟨27, _⟩ => ⟨S1x1, .i32⟩
  | .hbm, ⟨28, _⟩ => ⟨S600000x1, .i32⟩
  | .hbm, ⟨29, _⟩ => ⟨S600000x1, .i1⟩
  | .hbm, ⟨30, _⟩ => ⟨S600000x1, .i1⟩
  | .hbm, ⟨31, _⟩ => ⟨S_, .i1⟩
  | .hbm, ⟨32, _⟩ => ⟨S600000, .i1⟩
  | .hbm, ⟨33, _⟩ => ⟨S600000x128, .f32⟩
  | .hbm, ⟨34, _⟩ => ⟨S600000x128, .i1⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S1, .i32⟩
  | .hbm, ⟨47, _⟩ => ⟨S_, .i32⟩
  | .hbm, ⟨48, _⟩ => ⟨S600000x1, .i32⟩
  | .hbm, ⟨49, _⟩ => ⟨S600000x1, .i1⟩
  | .hbm, ⟨50, _⟩ => ⟨S1x1, .i32⟩
  | .hbm, ⟨51, _⟩ => ⟨S600000x1, .i32⟩
  | .hbm, ⟨52, _⟩ => ⟨S600000x1, .i1⟩
  | .hbm, ⟨53, _⟩ => ⟨S600000x1, .i1⟩
  | .hbm, ⟨54, _⟩ => ⟨S_, .i1⟩
  | .hbm, ⟨55, _⟩ => ⟨S600000, .i1⟩
  | .hbm, ⟨56, _⟩ => ⟨S600000x128, .f32⟩
  | .hbm, ⟨57, _⟩ => ⟨S600000x128, .i1⟩
  | .hbm, ⟨58, _⟩ => ⟨S_, .f32⟩
  | .hbm, ⟨59, _⟩ => ⟨S600000x128, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S_, .f32⟩
  | .hbm, ⟨67, _⟩ => ⟨S600000, .f32⟩
  | .hbm, ⟨68, _⟩ => ⟨S_, .f32⟩
  | .hbm, ⟨69, _⟩ => ⟨S50000, .f32⟩
  | .hbm, ⟨70, _⟩ => ⟨S600000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S256x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_cst : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_cst_0 : Ref sig .tc := ⟨.hbm, 66, rfl⟩
abbrev main_v10 : Ref sig .tc := ⟨.hbm, 67, rfl⟩
abbrev main_cst_1 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_cst_2 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  concatenates_S4000x128_S4000x128_S4000x128_S4000x384_d1 : Shape.Concatenates [S4000x128, S4000x128, S4000x128] S4000x384 1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  dot_S4000x384_S384x128_S4000x128_1_0_0_1_n_n_wf : DotDims.WF S4000x384 S384x128 S4000x128 [1] [0] [0] [1] [] []
  dot_S4000x128_S128x128_S4000x128_1_0_0_1_n_n_wf : DotDims.WF S4000x128 S128x128 S4000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .f32 = 32 ∨ (Rect.block (s := S600000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S600000x128.size a
  hwx0_2 : ∀ i : grid0.Coords, EltTy.bits .f32 = 32 ∨ (Rect.block (s := S600000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S600000x128.size a
  hwx0_7 : ∀ i : grid0.Coords, EltTy.bits .f32 = 32 ∨ (Rect.block (s := S600000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x384, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S_, .f32⟩
  | .hbm, ⟨50, _⟩ => ⟨S600000, .f32⟩
  | .hbm, ⟨51, _⟩ => ⟨S_, .f32⟩
  | .hbm, ⟨52, _⟩ => ⟨S50000, .f32⟩
  | .hbm, ⟨53, _⟩ => ⟨S600000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x256, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostFns.lean ====
/-
  The host-side stages both programs share, as functions of the argument arrays (at the extended reals).

  * `srcOf` / `dstOf`: the two rows of the edge list, the source and the destination node of every edge.
  * `wrap`: a NumPy-style row index made non-negative (an index below zero counts from the end: 50000 is added), as a
    column of start indices.
  * `rowsOf x i`: the rows of the node table `x` at the wrapped indices — the reference's `x[i]`.
  * `takeOf x i`: the same rows, except that a row whose wrapped index falls outside `[0, 49999]` is filled with the
    not-a-number pattern — the kernel program's `jnp.take(x, i, axis=0)`.
  * `aggOf e i`: the mean of the edge rows `e` arriving at each node: their scatter-sum by destination over the
    scatter-count clamped below by one.
-/
import proofs.«431072_j17910013624370_1_alg».proof.Proof.Gen.KernelIdeal
import Idealize.ShloMosaic.PureOps.Ideal

noncomputable section

namespace Cert.KernelIdeal.HostFns

open Idealize.ShloMosaic Cert.KernelIdeal Cert.KernelIdeal.Gen

/-- Row 0 of the edge list: every edge's source node. -/
def srcOf (a1 : IVec S2x600000 32) : IVec S600000 32 :=
  shapeCast S600000 (extractStridedSlice S1x600000 ![0, 0] a1 slices_S2x600000_S1x600000_0_0) shapeCasts_S1x600000_S600000

/-- Row 1 of the edge list: every edge's destination node. -/
def dstOf (a1 : IVec S2x600000 32) : IVec S600000 32 :=
  shapeCast S600000 (extractStridedSlice S1x600000 ![1, 0] a1 slices_S2x600000_S1x600000_1_0) shapeCasts_S1x600000_S600000

/-- An index below zero counts from the end of the 50000 rows. -/
def wrapped (i : IVec S600000 32) : IVec S600000 32 :=
  select (cmpi .slt i (broadcastInDim S600000 ![] bcast_S_S600000 (constantI S_ 32 0#32)))
    (addi i (broadcastInDim S600000 ![] bcast_S_S600000 (constantI S_ 32 50000#32))) i

/-- The wrapped indices as a column of start indices. -/
def wrap (i : IVec S600000 32) : IVec S600000x1 32 :=
  broadcastInDim S600000x1 ![0] bcast_S600000_S600000x1_0 (wrapped i)

/-- The rows of `x` at the wrapped indices. -/
def rowsOf (x : FVec Ideal S50000x128 .f32) (i : IVec S600000 32) : FVec Ideal S600000x128 .f32 :=
  Host.gather gather_S50000x128_S600000x1_S600000x128_1_0_n_n_0_1_1128 x (wrap i)

/-- Which edges have their wrapped index inside `[0, 49999]`. -/
def inRows (i : IVec S600000 32) : IVec S600000 1 :=
  Host.reduce IntOp.andi
    (andi (cmpi .sge (wrap i) (broadcastInDim S600000x1 ![] bcast_S_S600000x1 (constantI S_ 32 0#32)))
      (cmpi .sle (wrap i) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The rows of `x` at the wrapped indices, a row whose index is outside the table filled with the not-a-number
    pattern. -/
def takeOf (x : FVec Ideal S50000x128 .f32) (i : IVec S600000 32) : FVec Ideal S600000x128 .f32 :=
  select (broadcastInDim S600000x128 ![0] bcast_S600000_S600000x128_0 (inRows i)) (rowsOf x i)
    (broadcastInDim S600000x128 ![] bcast_S_S600000x128 (constant S_ .f32 0x7FC00000#32))

/-- The mean over the edges arriving at each node: the edge rows summed by destination, over the number of arriving
    edges or one, whichever is larger. -/
def aggOf (e : FVec Ideal S600000x128 .f32) (i : IVec S600000 32) : FVec Ideal S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 i) e)
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 i)
            (broadcastInDim S600000 ![] bcast_S_S600000 (constant S_ .f32 0x3F800000#32)))
          (broadcastInDim S50000 ![] bcast_S_S50000 (constant S_ .f32 0x3F800000#32)))))

end Cert.KernelIdeal.HostFns

end
-- ==== Proof.HostGather.lean ====
/-
  The kernel program's run up to the edge kernel's region: the two rows of the edge list are cut out, then each `take`
  call gathers its rows. Each stage writes its own buffers and leaves every other buffer as it found it, so what the
  edge kernel's region finds in each of its seven input arrays walks back to the launch memory: the taken source rows,
  the taken destination rows, and five arguments unchanged.
-/
import proofs.«431072_j17910013624370_1_alg».proof.Proof.Gen.KernelIdeal.Frame
import proofs.«431072_j17910013624370_1_alg».proof.Proof.HostFns
import Idealize.ShloMosaic.Lib.StableHlo.Run

set_option maxRecDepth 16384

noncomputable section

namespace Cert.KernelIdeal.HostGather

open Idealize.ShloMosaic Idealize.ShloMosaic.TcCoe Idealize.SL.Sem Idealize.ShloMosaic.StableHlo
open Cert.KernelIdeal Cert.KernelIdeal.Gen Cert.KernelIdeal.HostFns

variable (m : (ℓ : Loc nD τ sig) → Buf (Elt Ideal) ℓ) (ρ : Dev nD → PrngReg)

/-- A buffer that no operation of a stretch writes holds after the stretch what it held before. -/
local macro "kept_by " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Contents carried to a buffer's own type and back are unchanged. -/
theorem ofBuf_toBuf {T : BufTy} (x : StableHlo.TRef sig T) (v : T.Contents (Elt Ideal)) :
    x.ofBuf (x.toBuf v) = v := by
  obtain ⟨r, h, _, _⟩ := x
  subst h
  rfl

/-! ## After the edge list is cut into its two rows -/

theorem W1_v1 (c : Dev nD) : W1 (F := Ideal) m ρ c (Proc.devRef .tc main_v1) = srcOf (m ((c : Thread nD τ).loc main_arg1)) := by
  show StableHlo.after hostOps0 (W0 m ρ c) (Proc.devRef .tc main_v1) = _
  after_results
  rfl

theorem W1_v3 (c : Dev nD) : W1 (F := Ideal) m ρ c (Proc.devRef .tc main_v3) = dstOf (m ((c : Thread nD τ).loc main_arg1)) := by
  show StableHlo.after hostOps0 (W0 m ρ c) (Proc.devRef .tc main_v3) = _
  after_results
  rfl

theorem W1_arg0 (c : Dev nD) : W1 (F := Ideal) m ρ c (Proc.devRef .tc main_arg0) = (m ((c : Thread nD τ).loc main_arg0)) := by
  show StableHlo.after hostOps0 (W0 m ρ c) (Proc.devRef .tc main_arg0) = _
  kept_by hostOps0
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  kept_by hostOps0
theorem W1_arg3 (c : Dev nD) : W1 (F := Ideal) m ρ c (Proc.devRef .tc main_arg3) = (m ((c : Thread nD τ).loc main_arg3)) := by
  show StableHlo.after hostOps0 (W0 m ρ c) (Proc.devRef .tc main_arg3) = _
  kept_by hostOps0
theorem W1_arg4 (c : Dev nD) : W1 (F := Ideal) m ρ c (Proc.devRef .tc main_arg4) = (m ((c : Thread nD τ).loc main_arg4)) := by
  show StableHlo.after hostOps0 (W0 m ρ c) (Proc.devRef .tc main_arg4) = _
  kept_by hostOps0
theorem W1_arg5 (c : Dev nD) : W1 (F := Ideal) m ρ c (Proc.devRef .tc main_arg5) = (m ((c : Thread nD τ).loc main_arg5)) := by
  show StableHlo.after hostOps0 (W0 m ρ c) (Proc.devRef .tc main_arg5) = _
  kept_by hostOps0
theorem W1_arg6 (c : Dev nD) : W1 (F := Ideal) m ρ c (Proc.devRef .tc main_arg6) = (m ((c : Thread nD τ).loc main_arg6)) := by
  show StableHlo.after hostOps0 (W0 m ρ c) (Proc.devRef .tc main_arg6) = _
  kept_by hostOps0
theorem W1_arg7 (c : Dev nD) : W1 (F := Ideal) m ρ c (Proc.devRef .tc main_arg7) = (m ((c : Thread nD τ).loc main_arg7)) := by
  show StableHlo.after hostOps0 (W0 m ρ c) (Proc.devRef .tc main_arg7) = _
  kept_by hostOps0
theorem W1_arg8 (c : Dev nD) : W1 (F := Ideal) m ρ c (Proc.devRef .tc main_arg8) = (m ((c : Thread nD τ).loc main_arg8)) := by
  show StableHlo.after hostOps0 (W0 m ρ c) (Proc.devRef .tc main_arg8) = _
  kept_by hostOps0
theorem W1_arg9 (c : Dev nD) : W1 (F := Ideal) m ρ c (Proc.devRef .tc main_arg9) = (m ((c : Thread nD τ).loc main_arg9)) := by
  show StableHlo.after hostOps0 (W0 m ρ c) (Proc.devRef .tc main_arg9) = _
  kept_by hostOps0
theorem W1_arg10 (c : Dev nD) : W1 (F := Ideal) m ρ c (Proc.devRef .tc main_arg10) = (m ((c : Thread nD τ).loc main_arg10)) := by
  show StableHlo.after hostOps0 (W0 m ρ c) (Proc.devRef .tc main_arg10) = _
  kept_by hostOps0

/-! ## After the first `take`: the source rows -/

set_option maxHeartbeats 8000000 in
theorem W2_v4 (c : Dev nD) : W2 (F := Ideal) m ρ c (Proc.devRef .tc main_v4)
    = takeOf (W1 (F := Ideal) m ρ c (Proc.devRef .tc main_arg0)) (W1 (F := Ideal) m ρ c (Proc.devRef .tc main_v1)) := by
  show StableHlo.after hostOps0_1 (W1 m ρ c) (Proc.devRef .tc main_v4) = _
  generalize W1 (F := Ideal) m ρ c = W
  after_results
  simp only [ofBuf_toBuf]
  refine (cast_eq _ _).trans ?_
  have ei : (TRef.of (T := ⟨S600000, .i32⟩) main_v1).ofBuf (W (Proc.devRef .tc main_v1)) = (W (Proc.devRef .tc main_v1) : IVec S600000 32) :=
    cast_eq _ _
  have ex : (TRef.of (T := ⟨S50000x128, .f32⟩) main_arg0).ofBuf (W (Proc.devRef .tc main_arg0))
      = (W (Proc.devRef .tc main_arg0) : FVec Ideal S50000x128 .f32) := cast_eq _ _
  simp only [ei, ex]
  rfl

theorem W2_v3 (c : Dev nD) : W2 (F := Ideal) m ρ c (Proc.devRef .tc main_v3) = W1 (F := Ideal) m ρ c (Proc.devRef .tc main_v3) := by
  show StableHlo.after hostOps0_1 (W1 m ρ c) (Proc.devRef .tc main_v3) = _
  kept_by hostOps0_1
theorem W2_arg0 (c : Dev nD) : W2 (F := Ideal) m ρ c (Proc.devRef .tc main_arg0) = W1 (F := Ideal) m ρ c (Proc.devRef .tc main_arg0) := by
  show StableHlo.after hostOps0_1 (W1 m ρ c) (Proc.devRef .tc main_arg0) = _
  kept_by hostOps0_1
theorem W2_arg2 (c : Dev nD) : W2 (F := Ideal) m ρ c (Proc.devRef .tc main_arg2) = W1 (F := Ideal) m ρ c (Proc.devRef .tc main_arg2) := by
  show StableHlo.after hostOps0_1 (W1 m ρ c) (Proc.devRef .tc main_arg2) = _
  kept_by hostOps0_1
theorem W2_arg3 (c : Dev nD) : W2 (F := Ideal) m ρ c (Proc.devRef .tc main_arg3) = W1 (F := Ideal) m ρ c (Proc.devRef .tc main_arg3) := by
  show StableHlo.after hostOps0_1 (W1 m ρ c) (Proc.devRef .tc main_arg3) = _
  kept_by hostOps0_1
theorem W2_arg4 (c : Dev nD) : W2 (F := Ideal) m ρ c (Proc.devRef .tc main_arg4) = W1 (F := Ideal) m ρ c (Proc.devRef .tc main_arg4) := by
  show StableHlo.after hostOps0_1 (W1 m ρ c) (Proc.devRef .tc main_arg4) = _
  kept_by hostOps0_1
theorem W2_arg5 (c : Dev nD) : W2 (F := Ideal) m ρ c (Proc.devRef .tc main_arg5) = W1 (F := Ideal) m ρ c (Proc.devRef .tc main_arg5) := by
  show StableHlo.after hostOps0_1 (W1 m ρ c) (Proc.devRef .tc main_arg5) = _
  kept_by hostOps0_1
theorem W2_arg6 (c : Dev nD) : W2 (F := Ideal) m ρ c (Proc.devRef .tc main_arg6) = W1 (F := Ideal) m ρ c (Proc.devRef .tc main_arg6) := by
  show StableHlo.after hostOps0_1 (W1 m ρ c) (Proc.devRef .tc main_arg6) = _
  kept_by hostOps0_1
theorem W2_arg7 (c : Dev nD) : W2 (F := Ideal) m ρ c (Proc.devRef .tc main_arg7) = W1 (F := Ideal) m ρ c (Proc.devRef .tc main_arg7) := by
  show StableHlo.after hostOps0_1 (W1 m ρ c) (Proc.devRef .tc main_arg7) = _
  kept_by hostOps0_1
theorem W2_arg8 (c : Dev nD) : W2 (F := Ideal) m ρ c (Proc.devRef .tc main_arg8) = W1 (F := Ideal) m ρ c (Proc.devRef .tc main_arg8) := by
  show StableHlo.after hostOps0_1 (W1 m ρ c) (Proc.devRef .tc main_arg8) = _
  kept_by hostOps0_1
theorem W2_arg9 (c : Dev nD) : W2 (F := Ideal) m ρ c (Proc.devRef .tc main_arg9) = W1 (F := Ideal) m ρ c (Proc.devRef .tc main_arg9) := by
  show StableHlo.after hostOps0_1 (W1 m ρ c) (Proc.devRef .tc main_arg9) = _
  kept_by hostOps0_1
theorem W2_arg10 (c : Dev nD) : W2 (F := Ideal) m ρ c (Proc.devRef .tc main_arg10) = W1 (F := Ideal) m ρ c (Proc.devRef .tc main_arg10) := by
  show StableHlo.after hostOps0_1 (W1 m ρ c) (Proc.devRef .tc main_arg10) = _
  kept_by hostOps0_1

/-! ## After the second `take`: the destination rows -/

set_option maxHeartbeats 8000000 in
theorem W3_v5 (c : Dev nD) : W3 (F := Ideal) m ρ c (Proc.devRef .tc main_v5)
    = takeOf (W2 (F := Ideal) m ρ c (Proc.devRef .tc main_arg0)) (W2 (F := Ideal) m ρ c (Proc.devRef .tc main_v3)) := by
  show StableHlo.after hostOps0_2 (W2 m ρ c) (Proc.devRef .tc main_v5) = _
  generalize W2 (F := Ideal) m ρ c = W
  after_results
  simp only [ofBuf_toBuf]
  refine (cast_eq _ _).trans ?_
  have ei : (TRef.of (T := ⟨S600000, .i32⟩) main_v3).ofBuf (W (Proc.devRef .tc main_v3)) = (W (Proc.devRef .tc main_v3) : IVec S600000 32) :=
    cast_eq _ _
  have ex : (TRef.of (T := ⟨S50000x128, .f32⟩) main_arg0).ofBuf (W (Proc.devRef .tc main_arg0))
      = (W (Proc.devRef .tc main_arg0) : FVec Ideal S50000x128 .f32) := cast_eq _ _
  simp only [ei, ex]
  rfl

theorem W3_v4 (c : Dev nD) : W3 (F := Ideal) m ρ c (Proc.devRef .tc main_v4) = W2 (F := Ideal) m ρ c (Proc.devRef .tc main_v4) := by
  show StableHlo.after hostOps0_2 (W2 m ρ c) (Proc.devRef .tc main_v4) = _
  kept_by hostOps0_2
theorem W3_v3 (c : Dev nD) : W3 (F := Ideal) m ρ c (Proc.devRef .tc main_v3) = W2 (F := Ideal) m ρ c (Proc.devRef .tc main_v3) := by
  show StableHlo.after hostOps0_2 (W2 m ρ c) (Proc.devRef .tc main_v3) = _
  kept_by hostOps0_2
theorem W3_arg0 (c : Dev nD) : W3 (F := Ideal) m ρ c (Proc.devRef .tc main_arg0) = W2 (F := Ideal) m ρ c (Proc.devRef .tc main_arg0) := by
  show StableHlo.after hostOps0_2 (W2 m ρ c) (Proc.devRef .tc main_arg0) = _
  kept_by hostOps0_2
theorem W3_arg2 (c : Dev nD) : W3 (F := Ideal) m ρ c (Proc.devRef .tc main_arg2) = W2 (F := Ideal) m ρ c (Proc.devRef .tc main_arg2) := by
  show StableHlo.after hostOps0_2 (W2 m ρ c) (Proc.devRef .tc main_arg2) = _
  kept_by hostOps0_2
theorem W3_arg3 (c : Dev nD) : W3 (F := Ideal) m ρ c (Proc.devRef .tc main_arg3) = W2 (F := Ideal) m ρ c (Proc.devRef .tc main_arg3) := by
  show StableHlo.after hostOps0_2 (W2 m ρ c) (Proc.devRef .tc main_arg3) = _
  kept_by hostOps0_2
theorem W3_arg4 (c : Dev nD) : W3 (F := Ideal) m ρ c (Proc.devRef .tc main_arg4) = W2 (F := Ideal) m ρ c (Proc.devRef .tc main_arg4) := by
  show StableHlo.after hostOps0_2 (W2 m ρ c) (Proc.devRef .tc main_arg4) = _
  kept_by hostOps0_2
theorem W3_arg5 (c : Dev nD) : W3 (F := Ideal) m ρ c (Proc.devRef .tc main_arg5) = W2 (F := Ideal) m ρ c (Proc.devRef .tc main_arg5) := by
  show StableHlo.after hostOps0_2 (W2 m ρ c) (Proc.devRef .tc main_arg5) = _
  kept_by hostOps0_2
theorem W3_arg6 (c : Dev nD) : W3 (F := Ideal) m ρ c (Proc.devRef .tc main_arg6) = W2 (F := Ideal) m ρ c (Proc.devRef .tc main_arg6) := by
  show StableHlo.after hostOps0_2 (W2 m ρ c) (Proc.devRef .tc main_arg6) = _
  kept_by hostOps0_2
theorem W3_arg7 (c : Dev nD) : W3 (F := Ideal) m ρ c (Proc.devRef .tc main_arg7) = W2 (F := Ideal) m ρ c (Proc.devRef .tc main_arg7) := by
  show StableHlo.after hostOps0_2 (W2 m ρ c) (Proc.devRef .tc main_arg7) = _
  kept_by hostOps0_2
theorem W3_arg8 (c : Dev nD) : W3 (F := Ideal) m ρ c (Proc.devRef .tc main_arg8) = W2 (F := Ideal) m ρ c (Proc.devRef .tc main_arg8) := by
  show StableHlo.after hostOps0_2 (W2 m ρ c) (Proc.devRef .tc main_arg8) = _
  kept_by hostOps0_2
theorem W3_arg9 (c : Dev nD) : W3 (F := Ideal) m ρ c (Proc.devRef .tc main_arg9) = W2 (F := Ideal) m ρ c (Proc.devRef .tc main_arg9) := by
  show StableHlo.after hostOps0_2 (W2 m ρ c) (Proc.devRef .tc main_arg9) = _
  kept_by hostOps0_2
theorem W3_arg10 (c : Dev nD) : W3 (F := Ideal) m ρ c (Proc.devRef .tc main_arg10) = W2 (F := Ideal) m ρ c (Proc.devRef .tc main_arg10) := by
  show StableHlo.after hostOps0_2 (W2 m ρ c) (Proc.devRef .tc main_arg10) = _
  kept_by hostOps0_2

/-! ## What the edge kernel's region finds -/

/-- The taken source rows. -/
theorem found_src (c : Dev nD) : V3 (F := Ideal) m ρ c main_v4 = takeOf (m ((c : Thread nD τ).loc main_arg0)) (srcOf (m ((c : Thread nD τ).loc main_arg1))) := by
  show W3 (F := Ideal) m ρ c (Proc.devRef .tc main_v4) = _
  rw [W3_v4, W2_v4, W1_arg0, W1_v1]

/-- The taken destination rows. -/
theorem found_dst (c : Dev nD) : V3 (F := Ideal) m ρ c main_v5 = takeOf (m ((c : Thread nD τ).loc main_arg0)) (dstOf (m ((c : Thread nD τ).loc main_arg1))) := by
  show W3 (F := Ideal) m ρ c (Proc.devRef .tc main_v5) = _
  rw [W3_v5, W2_arg0, W1_arg0, W2_v3, W1_v3]

/-- The destination indices, kept for the averaging stage. -/
theorem found_idx (c : Dev nD) : W3 (F := Ideal) m ρ c (Proc.devRef .tc main_v3) = dstOf (m ((c : Thread nD τ).loc main_arg1)) := by
  rw [W3_v3, W2_v3, W1_v3]

theorem found_arg0 (c : Dev nD) : W3 (F := Ideal) m ρ c (Proc.devRef .tc main_arg0) = (m ((c : Thread nD τ).loc main_arg0)) := by
  rw [W3_arg0, W2_arg0, W1_arg0]
theorem found_arg2 (c : Dev nD) : W3 (F := Ideal) m ρ c (Proc.devRef .tc main_arg2) = (m ((c : Thread nD τ).loc main_arg2)) := by
  rw [W3_arg2, W2_arg2, W1_arg2]
theorem found_arg3 (c : Dev nD) : W3 (F := Ideal) m ρ c (Proc.devRef .tc main_arg3) = (m ((c : Thread nD τ).loc main_arg3)) := by
  rw [W3_arg3, W2_arg3, W1_arg3]
theorem found_arg4 (c : Dev nD) : W3 (F := Ideal) m ρ c (Proc.devRef .tc main_arg4) = (m ((c : Thread nD τ).loc main_arg4)) := by
  rw [W3_arg4, W2_arg4, W1_arg4]
theorem found_arg5 (c : Dev nD) : W3 (F := Ideal) m ρ c (Proc.devRef .tc main_arg5) = (m ((c : Thread nD τ).loc main_arg5)) := by
  rw [W3_arg5, W2_arg5, W1_arg5]
theorem found_arg6 (c : Dev nD) : W3 (F := Ideal) m ρ c (Proc.devRef .tc main_arg6) = (m ((c : Thread nD τ).loc main_arg6)) := by
  rw [W3_arg6, W2_arg6, W1_arg6]
theorem found_arg7 (c : Dev nD) : W3 (F := Ideal) m ρ c (Proc.devRef .tc main_arg7) = (m ((c : Thread nD τ).loc main_arg7)) := by
  rw [W3_arg7, W2_arg7, W1_arg7]
theorem found_arg8 (c : Dev nD) : W3 (F := Ideal) m ρ c (Proc.devRef .tc main_arg8) = (m ((c : Thread nD τ).loc main_arg8)) := by
  rw [W3_arg8, W2_arg8, W1_arg8]
theorem found_arg9 (c : Dev nD) : W3 (F := Ideal) m ρ c (Proc.devRef .tc main_arg9) = (m ((c : Thread nD τ).loc main_arg9)) := by
  rw [W3_arg9, W2_arg9, W1_arg9]
theorem found_arg10 (c : Dev nD) : W3 (F := Ideal) m ρ c (Proc.devRef .tc main_arg10) = (m ((c : Thread nD τ).loc main_arg10)) := by
  rw [W3_arg10, W2_arg10, W1_arg10]

end Cert.KernelIdeal.HostGather

end
-- ==== Proof.MlpSpec.lean ====
/-
  One row through a two-layer perceptron, over the extended reals.

  Both programs compute, for every row `r` of their inputs and every output column `j`,

      (∑ k, max ((∑ c, u c · W₁ c k) + b₁ k) 0 · W₂ k j) + b₂ j,

  where `u` is row `r` of the inputs laid side by side along the feature axis (three 128-wide pieces for the edge
  model, two for the node model). Nothing here depends on how many rows there are, which is why a kernel that walks the
  rows block by block and a reference that takes them all at once agree row by row.
-/
import Idealize.ShloMosaic.PureOps.Ideal
import Idealize.ShloMosaic.Lib.ValueIdx

noncomputable section

open scoped BigOperators

namespace Cert.Mlp

/-- Row `u` through the first layer, the rectifier and the second layer, read at output column `j`. -/
def row {K H C : Nat} (u : Fin K → EReal) (W1 : Fin K → Fin H → EReal) (b1 : Fin H → EReal)
    (W2 : Fin H → Fin C → EReal) (b2 : Fin C → EReal) (j : Fin C) : EReal :=
  (∑ k : Fin H, max ((∑ c : Fin K, u c * W1 c k) + b1 k) 0 * W2 k j) + b2 j

/-- Three 128-wide rows side by side: columns 0–127, 128–255, 256–383. -/
def cat3 (a b c : Fin 128 → EReal) : Fin 384 → EReal := fun q =>
  if h : q.val < 128 then a ⟨q.val, h⟩
  else if h2 : q.val < 256 then b ⟨q.val - 128, by omega⟩
  else c ⟨q.val - 256, by have := q.isLt; omega⟩

/-- Two 128-wide rows side by side: columns 0–127, 128–255. -/
def cat2 (a b : Fin 128 → EReal) : Fin 256 → EReal := fun q =>
  if h : q.val < 128 then a ⟨q.val, h⟩ else b ⟨q.val - 128, by have := q.isLt; omega⟩

/-- The row function depends on its inputs only through their values. -/
theorem row_congr {K H C : Nat} {u u' : Fin K → EReal} {W1 W1' : Fin K → Fin H → EReal} {b1 b1' : Fin H → EReal}
    {W2 W2' : Fin H → Fin C → EReal} {b2 b2' : Fin C → EReal} (hu : u = u') (h1 : W1 = W1') (hb1 : b1 = b1')
    (h2 : W2 = W2') (hb2 : b2 = b2') (j : Fin C) : row u W1 b1 W2 b2 j = row u' W1' b1' W2' b2' j := by
  subst hu h1 hb1 h2 hb2; rfl

open Idealize.ShloMosaic Idealize.ShloMosaic.ValueIdx

/-- The edge model over all 600000 edges: row `r` of the result is row `r` of the source rows, the destination rows
    and the edge features, side by side, through the two layers. -/
def edgeArr (xs xd ea : (⟨2, ![600000, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![600000, 128]⟩ : Shape).Idx → EReal := fun i =>
  row (cat3 (fun q => xs (ix2 (n0 := 600000) (i 0) q)) (fun q => xd (ix2 (n0 := 600000) (i 0) q))
      (fun q => ea (ix2 (n0 := 600000) (i 0) q)))
    (fun c k => W1 (ix2 c k)) (fun k => b1 (ix1 k)) (fun k j => W2 (ix2 k j)) (fun j => b2 (ix1 j)) (i 1)

theorem edgeArr_apply (xs xd ea : (⟨2, ![600000, 128]⟩ : Shape).Idx → EReal) (W1 : (⟨2, ![384, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (r : Fin 600000) (j : Fin 128) :
    edgeArr xs xd ea W1 b1 W2 b2 (ix2 r j)
      = row (cat3 (fun q => xs (ix2 r q)) (fun q => xd (ix2 r q)) (fun q => ea (ix2 r q)))
          (fun c k => W1 (ix2 c k)) (fun k => b1 (ix1 k)) (fun k j' => W2 (ix2 k j')) (fun j' => b2 (ix1 j')) j := rfl

/-- The node model over all 50000 nodes: row `r` of the result is row `r` of the node features and of the aggregated
    edge features, side by side, through the two layers. -/
def nodeArr (x agg : (⟨2, ![50000, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![50000, 128]⟩ : Shape).Idx → EReal := fun i =>
  row (cat2 (fun q => x (ix2 (n0 := 50000) (i 0) q)) (fun q => agg (ix2 (n0 := 50000) (i 0) q)))
    (fun c k => W1 (ix2 c k)) (fun k => b1 (ix1 k)) (fun k j => W2 (ix2 k j)) (fun j => b2 (ix1 j)) (i 1)

theorem nodeArr_apply (x agg : (⟨2, ![50000, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (r : Fin 50000) (j : Fin 128) :
    nodeArr x agg W1 b1 W2 b2 (ix2 r j)
      = row (cat2 (fun q => x (ix2 r q)) (fun q => agg (ix2 r q)))
          (fun c k => W1 (ix2 c k)) (fun k => b1 (ix1 k)) (fun k j' => W2 (ix2 k j')) (fun j' => b2 (ix1 j')) j := rfl

end Cert.Mlp

end
-- ==== Proof.EdgeBody.lean ====
/-
  The edge kernel's body at one element: the block it stores is, row by row, the two-layer perceptron of the rows of
  its three loaded input blocks laid side by side.
-/
import proofs.«431072_j17910013624370_1_alg».proof.Proof.Gen.KernelIdeal.Skeleton
import proofs.«431072_j17910013624370_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Idealize.ShloMosaic Idealize.ShloMosaic.ValueIdx Cert.KernelIdeal Cert.KernelIdeal.Gen

/-! ### The first product: a row of the 4000x384 operand against a column of the 384x128 one -/

private theorem lhs1_0 (i : S4000x128.Idx) (q : dot_S4000x384_S384x128_S4000x128_1_0_0_1_n_n.contr.Idx) :
    (dot_S4000x384_S384x128_S4000x128_1_0_0_1_n_n.lhsIdx i q 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
private theorem lhs1_1 (i : S4000x128.Idx) (q : dot_S4000x384_S384x128_S4000x128_1_0_0_1_n_n.contr.Idx) :
    (dot_S4000x384_S384x128_S4000x128_1_0_0_1_n_n.lhsIdx i q 1).val = (q ⟨0, by decide⟩).val :=
  dot_S4000x384_S384x128_S4000x128_1_0_0_1_n_n.lhsIdx_val_of_single rfl i q
private theorem rhs1_0 (i : S4000x128.Idx) (q : dot_S4000x384_S384x128_S4000x128_1_0_0_1_n_n.contr.Idx) :
    (dot_S4000x384_S384x128_S4000x128_1_0_0_1_n_n.rhsIdx i q 0).val = (q ⟨0, by decide⟩).val :=
  dot_S4000x384_S384x128_S4000x128_1_0_0_1_n_n.rhsIdx_val_of_single rfl i q
private theorem rhs1_1 (i : S4000x128.Idx) (q : dot_S4000x384_S384x128_S4000x128_1_0_0_1_n_n.contr.Idx) :
    (dot_S4000x384_S384x128_S4000x128_1_0_0_1_n_n.rhsIdx i q 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- The first product into the zero block, at row `p` and column `k`: the sum over the 384 joined features. -/
private theorem mm1_apply (A : FVec Ideal S4000x384 .bf16) (B : FVec Ideal S384x128 .bf16) (p : Fin 4000) (k : Fin 128) :
    matmul (F := Ideal) dot_S4000x384_S384x128_S4000x128_1_0_0_1_n_n none A B (constant (F := Ideal) S4000x128 .f32 0x00000000#32) (ix2 p k)
      = ∑ c : Fin 384, A (ix2 p c) * B (ix2 c k) := by
  simp only [matmul]
  rw [Ideal.matmul_constant_zero_apply, ← Equiv.sum_comp (ValueIdx.contrEquiv1 dot_S4000x384_S384x128_S4000x128_1_0_0_1_n_n 384 rfl rfl).symm]
  refine Finset.sum_congr rfl fun c _ => ?_
  have hk := ValueIdx.contrEquiv1_symm_val dot_S4000x384_S384x128_S4000x128_1_0_0_1_n_n 384 rfl rfl c
  have el : dot_S4000x384_S384x128_S4000x128_1_0_0_1_n_n.lhsIdx (ix2 p k) ((ValueIdx.contrEquiv1 dot_S4000x384_S384x128_S4000x128_1_0_0_1_n_n 384 rfl rfl).symm c) = ix2 p c := funext fun a => Fin.ext (by
    match a with
    | ⟨0, _⟩ => exact lhs1_0 _ _
    | ⟨1, _⟩ => exact (lhs1_1 _ _).trans hk)
  have er : dot_S4000x384_S384x128_S4000x128_1_0_0_1_n_n.rhsIdx (ix2 p k) ((ValueIdx.contrEquiv1 dot_S4000x384_S384x128_S4000x128_1_0_0_1_n_n 384 rfl rfl).symm c) = ix2 c k := funext fun a => Fin.ext (by
    match a with
    | ⟨0, _⟩ => exact (rhs1_0 _ _).trans hk
    | ⟨1, _⟩ => exact rhs1_1 _ _)
  rw [el, er]

/-! ### The second product: a row of the 4000x128 hidden block against a column of the 128x128 weights -/

private theorem lhs2_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs2_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs2_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs2_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The second product into the zero block, at row `p` and column `j`: the sum over the 128 hidden units. -/
private theorem mm2_apply (A : FVec Ideal S4000x128 .bf16) (B : FVec Ideal S128x128 .bf16) (p : Fin 4000) (j : Fin 128) :
    matmul (F := Ideal) dot_S4000x128_S128x128_S4000x128_1_0_0_1_n_n none A B (constant (F := Ideal) S4000x128 .f32 0x00000000#32) (ix2 p j)
      = ∑ k : Fin 128, A (ix2 p k) * B (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ### The three blocks side by side, and a bias vector spread over the rows -/

/-- Row `p` of the three 128-wide blocks joined along the feature axis is the three rows side by side. -/
private theorem cat_apply (a b c : FVec Ideal S4000x128 .bf16) (p : Fin 4000) (q : Fin 384) :
    concatenate S4000x384 1 [⟨S4000x128, a⟩, ⟨S4000x128, b⟩, ⟨S4000x128, c⟩]
        concatenates_S4000x128_S4000x128_S4000x128_S4000x384_d1 (ix2 p q)
      = Cert.Mlp.cat3 (fun q => a (ix2 p q)) (fun q => b (ix2 p q)) (fun q => c (ix2 p q)) q := by
  unfold Cert.Mlp.cat3
  have hq := q.isLt
  split
  · next h =>
    exact concatenate_apply_piece (1 : Fin S4000x384.rank) _ _ (ix2 p q) 0 (by show (0 : Nat) < 3; omega) S4000x128 a rfl rfl 0 rfl
      (ix2 p ⟨q.val, h⟩) (fun d hd => match d with | ⟨0, _⟩ => rfl | ⟨1, _⟩ => absurd rfl hd)
      (by show 0 + q.val = q.val; omega)
  · next h =>
    split
    · next h2 =>
      exact concatenate_apply_piece (1 : Fin S4000x384.rank) _ _ (ix2 p q) 1 (by show (1 : Nat) < 3; omega) S4000x128 b rfl rfl 128 rfl
        (ix2 p ⟨q.val - 128, by omega⟩) (fun d hd => match d with | ⟨0, _⟩ => rfl | ⟨1, _⟩ => absurd rfl hd)
        (by show 128 + (q.val - 128) = q.val; omega)
    · next h2 =>
      exact concatenate_apply_piece (1 : Fin S4000x384.rank) _ _ (ix2 p q) 2 (by show (2 : Nat) < 3; omega) S4000x128 c rfl rfl 256 rfl
        (ix2 p ⟨q.val - 256, by omega⟩) (fun d hd => match d with | ⟨0, _⟩ => rfl | ⟨1, _⟩ => absurd rfl hd)
        (by show 256 + (q.val - 256) = q.val; omega)

/-- A 128-vector given a leading unit axis and spread over the 4000 rows reads, at `(p, k)`, the vector at `k`. -/
private theorem bias_apply (b : FVec Ideal S128 .f32) (p : Fin 4000) (k : Fin 128) :
    broadcastTo S4000x128 (shapeCast S1x128 b shapeCasts_S128_S1x128) broadcasts_S1x128_S4000x128 (ix2 p k) = b (ix1 k) :=
  (broadcastTo_1b_ab_apply _ broadcasts_S1x128_S4000x128 p k).trans (shapeCast_a_1a_apply b shapeCasts_S128_S1x128 0 k)

/-- Element `(p, j)` of the stored block: row `p` of the three input blocks through the two layers, column `j`. -/
theorem pay_apply (v0 v3 v6 : Vec Ideal S4000x128 .f32) (v9 : Vec Ideal S384x128 .f32) (v12 : Vec Ideal S128 .f32)
    (v19 : Vec Ideal S128x128 .f32) (v22 : Vec Ideal S128 .f32) (p : Fin 4000) (j : Fin 128) :
    k0_pay1 (F := Ideal) v0 v3 v6 v9 v12 v19 v22 (ix2 p j)
      = Cert.Mlp.row (Cert.Mlp.cat3 (fun q => v0 (ix2 p q)) (fun q => v3 (ix2 p q)) (fun q => v6 (ix2 p q)))
          (fun c k => v9 (ix2 c k)) (fun k => v12 (ix1 k)) (fun k j' => v19 (ix2 k j')) (fun j' => v22 (ix1 j')) j := by
  unfold k0_pay1
  refine (congrArg₂ (· + ·) (mm2_apply _ _ p j) (bias_apply v22 p j)).trans ?_
  unfold Cert.Mlp.row
  refine congrArg (· + v22 (ix1 j)) (Finset.sum_congr rfl fun k _ => ?_)
  refine congrArg (· * v19 (ix2 k j)) ?_
  refine (congrArg₂ max (congrArg₂ (· + ·) (mm1_apply _ _ p k) (bias_apply v12 p k)) Ideal.ofBits_zero_f32).trans ?_
  refine congrArg (fun x => max (x + v12 (ix1 k)) 0) (Finset.sum_congr rfl fun c _ => ?_)
  refine congrArg (· * v9 (ix2 c k)) ?_
  refine (cat_apply _ _ _ p c).trans ?_
  rw [shapeCast_self, shapeCast_self]
  rfl

end Cert.KernelIdeal.EdgeBody

end
-- ==== Proof.EdgeArray.lean ====
/-
  The edge kernel's output array after its region: every 4000-row block is written by exactly one grid point, from the
  same rows of the three row-blocked inputs and the whole weights, so the array is the edge model of the arrays the
  region found.
-/
import proofs.«431072_j17910013624370_1_alg».proof.Proof.Gen.KernelIdeal.Frame
import proofs.«431072_j17910013624370_1_alg».proof.Proof.EdgeBody

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Two zero offsets, however spelt. -/
private theorem offsets_zero2 : (![0, 0] : Fin 2 → Nat) = fun _ => 0 := funext fun a => by fin_cases a <;> rfl
/-- One zero offset, however spelt. -/
private theorem offsets_zero1 : (![0] : Fin 1 → Nat) = fun _ => 0 := funext fun a => by fin_cases a <;> rfl

/-- The index maps over the 150 grid points: the three row-blocked inputs and the output are at block row `t`,
    column block 0; the weights and biases are at block 0 throughout. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- One stored block, row by row: when the three row-blocked inputs hold rows `b * 4000 + p` of their arrays and the
    weights are whole, element `y` of the block is the edge model at the array index `e y` of the same row. -/
private theorem block_rows (x0 x1 x2 : Vec Ideal S4000x128 .f32) (x3 : Vec Ideal S384x128 .f32) (x4 : Vec Ideal S128 .f32)
    (x5 : Vec Ideal S128x128 .f32) (x6 : Vec Ideal S128 .f32)
    (A0 A1 A2 : S600000x128.Idx → EReal) (A3 : S384x128.Idx → EReal) (A4 : S128.Idx → EReal)
    (A5 : S128x128.Idx → EReal) (A6 : S128.Idx → EReal)
    (e : S4000x128.Idx → S600000x128.Idx) (b : Nat)
    (he0 : ∀ y, (e y 0).val = b * 4000 + (y 0).val) (he1 : ∀ y, (e y 1).val = (y 1).val)
    (h0 : ∀ y, x0 y = A0 (e y)) (h1 : ∀ y, x1 y = A1 (e y)) (h2 : ∀ y, x2 y = A2 (e y))
    (h3 : ∀ y, x3 y = A3 y) (h4 : ∀ y, x4 y = A4 y) (h5 : ∀ y, x5 y = A5 y) (h6 : ∀ y, x6 y = A6 y)
    (y : S4000x128.Idx) :
    k0_pay1 (F := Ideal) x0 x1 x2 x3 x4 x5 x6 y = Cert.Mlp.edgeArr A0 A1 A2 A3 A4 A5 A6 (e y) := by
  obtain ⟨p, j, rfl⟩ : ∃ (p : Fin 4000) (j : Fin 128), y = ix2 p j := ⟨y 0, y 1, eq_ix2 y⟩
  have hr : b * 4000 + p.val < 600000 := by
    have h := he0 (ix2 p j)
    have hlt := idx2_lt0 (e (ix2 p j))
    have hp : ((ix2 p j : S4000x128.Idx) 0).val = p.val := rfl
    omega
  have hrow : ∀ q : Fin 128, e (ix2 p q) = ix2 (⟨b * 4000 + p.val, hr⟩ : Fin 600000) q := by
    intro q; funext a; apply Fin.ext
    match a with
    | ⟨0, _⟩ => exact he0 (ix2 p q)
    | ⟨1, _⟩ => exact he1 (ix2 p q)
  rw [Cert.KernelIdeal.EdgeBody.pay_apply, hrow j, Cert.Mlp.edgeArr_apply]
  refine Cert.Mlp.row_congr ?_ ?_ ?_ ?_ ?_ j
  · simp only [h0, h1, h2, hrow]
  · funext c k; exact h3 _
  · funext k; exact h4 _
  · funext k j'; exact h5 _
  · funext j'; exact h6 _

/-- What point `t` writes back is block `t` of the edge model of the arrays the region found. -/
private theorem written_block (c : Dev nD) (t : Fin cfg0.N) :
    (dat0 (F := Ideal) V c).flushed 7 t = ((cfg0.win 7).blk t).view.read (Elt Ideal)
      (Cert.Mlp.edgeArr (V c main_v4) (V c main_v5) (V c main_arg2) (V c main_arg3) (V c main_arg4) (V c main_arg5)
          (V c main_arg6)) := by
  show (cfg0.win 7).cut (grid0.coords t) ((dat0 V c).after 7 t) = _
  rw [after0_7]
  unfold out0_7
  rw [View.canon_unit_zero offsets_zero2]
  simp only [View.ld_unit_zero (S := S4000x128) offsets_zero2, View.ld_unit_zero (S := S384x128) offsets_zero2,
    View.ld_unit_zero (S := S128x128) offsets_zero2, View.ld_unit_zero (S := S128) offsets_zero1]
  obtain ⟨i00, i01, i10, i11, i20, i21, i30, i31, i40, i50, i51, i60, i70, i71⟩ := block_index t
  funext y
  show k0_pay1 (F := Ideal) (iblk0 V c 0 t) (iblk0 V c 1 t) (iblk0 V c 2 t) (iblk0 V c 3 t) (iblk0 V c 4 t)
      (iblk0 V c 5 t) (iblk0 V c 6 t) y
    = Cert.Mlp.edgeArr (V c main_v4) (V c main_v5) (V c main_arg2) (V c main_arg3) (V c main_arg4) (V c main_arg5)
        (V c main_arg6) (((cfg0.win 7).blk t).view.emb y)
  refine block_rows (iblk0 V c 0 t) (iblk0 V c 1 t) (iblk0 V c 2 t) (iblk0 V c 3 t) (iblk0 V c 4 t)
      (iblk0 V c 5 t) (iblk0 V c 6 t) (V c main_v4) (V c main_v5) (V c main_arg2) (V c main_arg3) (V c main_arg4)
      (V c main_arg5) (V c main_arg6) (((cfg0.win 7).blk t).view.emb) t.val ?_ ?_ ?_ ?_ ?_ ?_ ?_ ?_ ?_ y
  · intro z
    show win0_7.index t (0 : Fin 2) * 4000 + 1 * (z 0).val = t.val * 4000 + (z 0).val
    rw [i70]; omega
  · intro z
    show win0_7.index t (1 : Fin 2) * 128 + 1 * (z 1).val = (z 1).val
    rw [i71]; omega
  · intro z
    show V c main_v4 (((cfg0.win 0).blk t).view.emb z) = V c main_v4 (((cfg0.win 7).blk t).view.emb z)
    refine congrArg _ (funext fun a => Fin.ext ?_)
    match a with
    | ⟨0, _⟩ => show win0_0.index t (0 : Fin 2) * 4000 + 1 * (z 0).val = win0_7.index t (0 : Fin 2) * 4000 + 1 * (z 0).val; rw [i00, i70]
    | ⟨1, _⟩ => show win0_0.index t (1 : Fin 2) * 128 + 1 * (z 1).val = win0_7.index t (1 : Fin 2) * 128 + 1 * (z 1).val; rw [i01, i71]
  · intro z
    show V c main_v5 (((cfg0.win 1).blk t).view.emb z) = V c main_v5 (((cfg0.win 7).blk t).view.emb z)
    refine congrArg _ (funext fun a => Fin.ext ?_)
    match a with
    | ⟨0, _⟩ => show win0_1.index t (0 : Fin 2) * 4000 + 1 * (z 0).val = win0_7.index t (0 : Fin 2) * 4000 + 1 * (z 0).val; rw [i10, i70]
    | ⟨1, _⟩ => show win0_1.index t (1 : Fin 2) * 128 + 1 * (z 1).val = win0_7.index t (1 : Fin 2) * 128 + 1 * (z 1).val; rw [i11, i71]
  · intro z
    show V c main_arg2 (((cfg0.win 2).blk t).view.emb z) = V c main_arg2 (((cfg0.win 7).blk t).view.emb z)
    refine congrArg _ (funext fun a => Fin.ext ?_)
    match a with
    | ⟨0, _⟩ => show win0_2.index t (0 : Fin 2) * 4000 + 1 * (z 0).val = win0_7.index t (0 : Fin 2) * 4000 + 1 * (z 0).val; rw [i20, i70]
    | ⟨1, _⟩ => show win0_2.index t (1 : Fin 2) * 128 + 1 * (z 1).val = win0_7.index t (1 : Fin 2) * 128 + 1 * (z 1).val; rw [i21, i71]
  · intro z
    show V c main_arg3 (((cfg0.win 3).blk t).view.emb z) = V c main_arg3 z
    refine congrArg _ (funext fun a => Fin.ext ?_)
    match a with
    | ⟨0, _⟩ => show win0_3.index t (0 : Fin 2) * 384 + 1 * (z 0).val = (z 0).val; rw [i30]; omega
    | ⟨1, _⟩ => show win0_3.index t (1 : Fin 2) * 128 + 1 * (z 1).val = (z 1).val; rw [i31]; omega
  · intro z
    show V c main_arg4 (((cfg0.win 4).blk t).view.emb z) = V c main_arg4 z
    refine congrArg _ (funext fun a => Fin.ext ?_)
    match a with
    | ⟨0, _⟩ => show win0_4.index t (0 : Fin 1) * 128 + 1 * (z 0).val = (z 0).val; rw [i40]; omega
  · intro z
    show V c main_arg5 (((cfg0.win 5).blk t).view.emb z) = V c main_arg5 z
    refine congrArg _ (funext fun a => Fin.ext ?_)
    match a with
    | ⟨0, _⟩ => show win0_5.index t (0 : Fin 2) * 128 + 1 * (z 0).val = (z 0).val; rw [i50]; omega
    | ⟨1, _⟩ => show win0_5.index t (1 : Fin 2) * 128 + 1 * (z 1).val = (z 1).val; rw [i51]; omega
  · intro z
    show V c main_arg6 (((cfg0.win 6).blk t).view.emb z) = V c main_arg6 z
    refine congrArg _ (funext fun a => Fin.ext ?_)
    match a with
    | ⟨0, _⟩ => show win0_6.index t (0 : Fin 1) * 128 + 1 * (z 0).val = (z 0).val; rw [i60]; omega

/-- An index of the array is in point `t`'s block iff each coordinate is in the block's range on its axis. -/
private theorem mem_block (t : Fin cfg0.N) (i : S600000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v6).slice (win0_7.rect t)).set ↔ _
  rw [View.set_slice_whole, Rect.mem_set_unit]
  exact Iff.rfl

/-- Every index of the array is in some point's block: row `r` is written by point `r / 4000`. -/
private theorem covered (i : S600000x128.Idx) :
    ∃ t : Fin cfg0.N, (cfg0.win 7).flush t = true ∧ i ∈ ((cfg0.win 7).blk t).view.set := by
  have hi0 : (i 0).val < 600000 := idx2_lt0 i
  have hi1 : (i 1).val < 128 := idx2_lt1 i
  have hN : cfg0.N = 150 := N_0
  obtain ⟨t, ht⟩ : ∃ t : Fin cfg0.N, t.val = (i 0).val / 4000 := ⟨⟨(i 0).val / 4000, by rw [hN]; omega⟩, rfl⟩
  refine ⟨t, flush0_7 t, ?_⟩
  rw [mem_block]
  obtain ⟨-, -, -, -, -, -, -, -, -, -, -, -, i70, i71⟩ := block_index t
  intro a
  match a with
  | ⟨0, _⟩ =>
    show win0_7.index t (0 : Fin 2) * 4000 ≤ (i 0).val ∧ (i 0).val < win0_7.index t (0 : Fin 2) * 4000 + 4000
    rw [i70, ht]; omega
  | ⟨1, _⟩ =>
    show win0_7.index t (1 : Fin 2) * 128 ≤ (i 1).val ∧ (i 1).val < win0_7.index t (1 : Fin 2) * 128 + 128
    rw [i71]; omega

/-- The output array once every grid point has written its block back. -/
theorem final (c : Dev nD) :
    (dat0 (F := Ideal) V c).arrAt 7 cfg0.N
      = Cert.Mlp.edgeArr (V c main_v4) (V c main_v5) (V c main_arg2) (V c main_arg3) (V c main_arg4) (V c main_arg5)
          (V c main_arg6) :=
  (dat0 V c).arrAt_eq_of_cover 7 _ (fun t _ => written_block V c t) covered

end Cert.KernelIdeal.EdgeArray

end
-- ==== Proof.NodeBody.lean ====
/-
  The node kernel's body at one element: the block it stores is, row by row, the two-layer perceptron of the rows of
  its two loaded input blocks laid side by side.
-/
import proofs.«431072_j17910013624370_1_alg».proof.Proof.Gen.KernelIdeal.Skeleton
import proofs.«431072_j17910013624370_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Idealize.ShloMosaic Idealize.ShloMosaic.ValueIdx Cert.KernelIdeal Cert.KernelIdeal.Gen

/-! ### The first product: a row of the 5000x256 operand against a column of the 256x128 one -/

private theorem lhs1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem lhs1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem rhs1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem rhs1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product into the zero block, at row `p` and column `k`: the sum over the 256 joined features. -/
private theorem mm1_apply (A : FVec Ideal S5000x256 .bf16) (B : FVec Ideal S256x128 .bf16) (p : Fin 5000) (k : Fin 128) :
    matmul (F := Ideal) dot_S5000x256_S256x128_S5000x128_1_0_0_1_n_n none A B (constant (F := Ideal) S5000x128 .f32 0x00000000#32) (ix2 p k)
      = ∑ c : Fin 256, A (ix2 p c) * B (ix2 c k) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun c _ => ?_
  have hk := ValueIdx.contrEquiv1_symm_val dot_S5000x256_S256x128_S5000x128_1_0_0_1_n_n 256 rfl rfl c
  have el : dot_S5000x256_S256x128_S5000x128_1_0_0_1_n_n.lhsIdx (ix2 p k) ((ValueIdx.contrEquiv1 dot_S5000x256_S256x128_S5000x128_1_0_0_1_n_n 256 rfl rfl).symm c) = ix2 p c := funext fun a => Fin.ext (by
    match a with
    | ⟨0, _⟩ => exact lhs1_0 _ _
    | ⟨1, _⟩ => exact (lhs1_1 _ _).trans hk)
  have er : dot_S5000x256_S256x128_S5000x128_1_0_0_1_n_n.rhsIdx (ix2 p k) ((ValueIdx.contrEquiv1 dot_S5000x256_S256x128_S5000x128_1_0_0_1_n_n 256 rfl rfl).symm c) = ix2 c k := funext fun a => Fin.ext (by
    match a with
    | ⟨0, _⟩ => exact (rhs1_0 _ _).trans hk
    | ⟨1, _⟩ => exact rhs1_1 _ _)
  rw [el, er]

/-! ### The second product: a row of the 5000x128 hidden block against a column of the 128x128 weights -/

private theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product into the zero block, at row `p` and column `j`: the sum over the 128 hidden units. -/
private theorem mm2_apply (A : FVec Ideal S5000x128 .bf16) (B : FVec Ideal S128x128 .bf16) (p : Fin 5000) (j : Fin 128) :
    matmul (F := Ideal) dot_S5000x128_S128x128_S5000x128_1_0_0_1_n_n none A B (constant (F := Ideal) S5000x128 .f32 0x00000000#32) (ix2 p j)
      = ∑ k : Fin 128, A (ix2 p k) * B (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ### The two blocks side by side, and a bias vector spread over the rows -/

/-- Row `p` of the two 128-wide blocks joined along the feature axis is the two rows side by side. -/
private theorem cat_apply (a b : FVec Ideal S5000x128 .bf16) (p : Fin 5000) (q : Fin 256) :
    concatenate S5000x256 1 [⟨S5000x128, a⟩, ⟨S5000x128, b⟩] concatenates_S5000x128_S5000x128_S5000x256_d1 (ix2 p q)
      = Cert.Mlp.cat2 (fun q => a (ix2 p q)) (fun q => b (ix2 p q)) q := by
  unfold Cert.Mlp.cat2
  have hq := q.isLt
  split
  · next h =>
    exact concatenate_apply_piece (1 : Fin S5000x256.rank) _ _ (ix2 p q) 0 (by show (0 : Nat) < 2; omega) S5000x128 a rfl rfl 0 rfl
      (ix2 p ⟨q.val, h⟩) (fun d hd => match d with | ⟨0, _⟩ => rfl | ⟨1, _⟩ => absurd rfl hd)
      (by show 0 + q.val = q.val; omega)
  · next h =>
    exact concatenate_apply_piece (1 : Fin S5000x256.rank) _ _ (ix2 p q) 1 (by show (1 : Nat) < 2; omega) S5000x128 b rfl rfl 128 rfl
      (ix2 p ⟨q.val - 128, by omega⟩) (fun d hd => match d with | ⟨0, _⟩ => rfl | ⟨1, _⟩ => absurd rfl hd)
      (by show 128 + (q.val - 128) = q.val; omega)

/-- A 128-vector given a leading unit axis and spread over the 5000 rows reads, at `(p, k)`, the vector at `k`. -/
private theorem bias_apply (b : FVec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ broadcasts_S1x128_S5000x128 p k).trans (shapeCast_a_1a_apply b shapeCasts_S128_S1x128 0 k)

/-- Element `(p, j)` of the stored block: row `p` of the two input blocks through the two layers, column `j`. -/
theorem pay_apply (v0 v2 : Vec Ideal S5000x128 .f32) (v6 : Vec Ideal S256x128 .f32) (v9 : Vec Ideal S128 .f32)
    (v16 : Vec Ideal S128x128 .f32) (v19 : Vec Ideal S128 .f32) (p : Fin 5000) (j : Fin 128) :
    k1_pay1 (F := Ideal) v0 v2 v6 v9 v16 v19 (ix2 p j)
      = Cert.Mlp.row (Cert.Mlp.cat2 (fun q => v0 (ix2 p q)) (fun q => v2 (ix2 p q)))
          (fun c k => v6 (ix2 c k)) (fun k => v9 (ix1 k)) (fun k j' => v16 (ix2 k j')) (fun j' => v19 (ix1 j')) j := by
  unfold k1_pay1
  refine (congrArg₂ (· + ·) (mm2_apply _ _ p j) (bias_apply v19 p j)).trans ?_
  unfold Cert.Mlp.row
  refine congrArg (· + v19 (ix1 j)) (Finset.sum_congr rfl fun k _ => ?_)
  refine congrArg (· * v16 (ix2 k j)) ?_
  refine (congrArg₂ max (congrArg₂ (· + ·) (mm1_apply _ _ p k) (bias_apply v9 p k)) Ideal.ofBits_zero_f32).trans ?_
  refine congrArg (fun x => max (x + v9 (ix1 k)) 0) (Finset.sum_congr rfl fun c _ => ?_)
  refine congrArg (· * v6 (ix2 c k)) ?_
  refine (cat_apply _ _ p c).trans ?_
  rw [shapeCast_self]
  rfl

end Cert.KernelIdeal.NodeBody

end
-- ==== Proof.NodeArray.lean ====
/-
  The node kernel's output array after its region: every 5000-row block is written by exactly one grid point, from the
  same rows of the two row-blocked inputs and the whole weights, so the array is the node model of the arrays the
  region found.
-/
import proofs.«431072_j17910013624370_1_alg».proof.Proof.Gen.KernelIdeal.Frame
import proofs.«431072_j17910013624370_1_alg».proof.Proof.NodeBody

set_option maxRecDepth 16384

noncomputable section

namespace Cert.KernelIdeal.NodeArray

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Two zero offsets, however spelt. -/
private theorem offsets_zero2 : (![0, 0] : Fin 2 → Nat) = fun _ => 0 := funext fun a => by fin_cases a <;> rfl
/-- One zero offset, however spelt. -/
private theorem offsets_zero1 : (![0] : Fin 1 → Nat) = fun _ => 0 := funext fun a => by fin_cases a <;> rfl

/-- The index maps over the 10 grid points: the two row-blocked inputs and the output are at block row `t`,
    column block 0; the weights and biases are at block 0 throughout. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- One stored block, row by row: when the two row-blocked inputs hold rows `b * 5000 + p` of their arrays and the
    weights are whole, element `y` of the block is the node model at the array index `e y` of the same row. -/
private theorem block_rows (x0 x1 : Vec Ideal S5000x128 .f32) (x2 : Vec Ideal S256x128 .f32) (x3 : Vec Ideal S128 .f32)
    (x4 : Vec Ideal S128x128 .f32) (x5 : Vec Ideal S128 .f32)
    (A0 A1 : S50000x128.Idx → EReal) (A2 : S256x128.Idx → EReal) (A3 : S128.Idx → EReal)
    (A4 : S128x128.Idx → EReal) (A5 : S128.Idx → EReal)
    (e : S5000x128.Idx → S50000x128.Idx) (b : Nat)
    (he0 : ∀ y, (e y 0).val = b * 5000 + (y 0).val) (he1 : ∀ y, (e y 1).val = (y 1).val)
    (h0 : ∀ y, x0 y = A0 (e y)) (h1 : ∀ y, x1 y = A1 (e y))
    (h2 : ∀ y, x2 y = A2 y) (h3 : ∀ y, x3 y = A3 y) (h4 : ∀ y, x4 y = A4 y) (h5 : ∀ y, x5 y = A5 y)
    (y : S5000x128.Idx) :
    k1_pay1 (F := Ideal) x0 x1 x2 x3 x4 x5 y = Cert.Mlp.nodeArr A0 A1 A2 A3 A4 A5 (e y) := by
  obtain ⟨p, j, rfl⟩ : ∃ (p : Fin 5000) (j : Fin 128), y = ix2 p j := ⟨y 0, y 1, eq_ix2 y⟩
  have hr : b * 5000 + p.val < 50000 := by
    have h := he0 (ix2 p j)
    have hlt := idx2_lt0 (e (ix2 p j))
    have hp : ((ix2 p j : S5000x128.Idx) 0).val = p.val := rfl
    omega
  have hrow : ∀ q : Fin 128, e (ix2 p q) = ix2 (⟨b * 5000 + p.val, hr⟩ : Fin 50000) q := by
    intro q; funext a; apply Fin.ext
    match a with
    | ⟨0, _⟩ => exact he0 (ix2 p q)
    | ⟨1, _⟩ => exact he1 (ix2 p q)
  rw [Cert.KernelIdeal.NodeBody.pay_apply, hrow j, Cert.Mlp.nodeArr_apply]
  refine Cert.Mlp.row_congr ?_ ?_ ?_ ?_ ?_ j
  · simp only [h0, h1, hrow]
  · funext c k; exact h2 _
  · funext k; exact h3 _
  · funext k j'; exact h4 _
  · funext j'; exact h5 _

/-- What point `t` writes back is block `t` of the node model of the arrays the region found. -/
private theorem written_block (c : Dev nD) (t : Fin cfg1.N) :
    (dat1 (F := Ideal) V c).flushed 6 t = ((cfg1.win 6).blk t).view.read (Elt Ideal)
      (Cert.Mlp.nodeArr (V c main_arg0) (V c main_v18) (V c main_arg7) (V c main_arg8) (V c main_arg9)
          (V c main_arg10)) := by
  show (cfg1.win 6).cut (grid1.coords t) ((dat1 V c).after 6 t) = _
  rw [after1_6]
  unfold out1_6
  rw [View.canon_unit_zero offsets_zero2]
  simp only [View.ld_unit_zero (S := S5000x128) offsets_zero2, View.ld_unit_zero (S := S256x128) offsets_zero2,
    View.ld_unit_zero (S := S128x128) offsets_zero2, View.ld_unit_zero (S := S128) offsets_zero1]
  obtain ⟨i00, i01, i10, i11, i20, i21, i30, i40, i41, i50, i60, i61⟩ := block_index t
  funext y
  show k1_pay1 (F := Ideal) (iblk1 V c 0 t) (iblk1 V c 1 t) (iblk1 V c 2 t) (iblk1 V c 3 t) (iblk1 V c 4 t)
      (iblk1 V c 5 t) y
    = Cert.Mlp.nodeArr (V c main_arg0) (V c main_v18) (V c main_arg7) (V c main_arg8) (V c main_arg9)
        (V c main_arg10) (((cfg1.win 6).blk t).view.emb y)
  refine block_rows (iblk1 V c 0 t) (iblk1 V c 1 t) (iblk1 V c 2 t) (iblk1 V c 3 t) (iblk1 V c 4 t)
      (iblk1 V c 5 t) (V c main_arg0) (V c main_v18) (V c main_arg7) (V c main_arg8) (V c main_arg9)
      (V c main_arg10) (((cfg1.win 6).blk t).view.emb) t.val ?_ ?_ ?_ ?_ ?_ ?_ ?_ ?_ y
  · intro z
    show win1_6.index t (0 : Fin 2) * 5000 + 1 * (z 0).val = t.val * 5000 + (z 0).val
    rw [i60]; omega
  · intro z
    show win1_6.index t (1 : Fin 2) * 128 + 1 * (z 1).val = (z 1).val
    rw [i61]; omega
  · intro z
    show V c main_arg0 (((cfg1.win 0).blk t).view.emb z) = V c main_arg0 (((cfg1.win 6).blk t).view.emb z)
    refine congrArg _ (funext fun a => Fin.ext ?_)
    match a with
    | ⟨0, _⟩ => show win1_0.index t (0 : Fin 2) * 5000 + 1 * (z 0).val = win1_6.index t (0 : Fin 2) * 5000 + 1 * (z 0).val; rw [i00, i60]
    | ⟨1, _⟩ => show win1_0.index t (1 : Fin 2) * 128 + 1 * (z 1).val = win1_6.index t (1 : Fin 2) * 128 + 1 * (z 1).val; rw [i01, i61]
  · intro z
    show V c main_v18 (((cfg1.win 1).blk t).view.emb z) = V c main_v18 (((cfg1.win 6).blk t).view.emb z)
    refine congrArg _ (funext fun a => Fin.ext ?_)
    match a with
    | ⟨0, _⟩ => show win1_1.index t (0 : Fin 2) * 5000 + 1 * (z 0).val = win1_6.index t (0 : Fin 2) * 5000 + 1 * (z 0).val; rw [i10, i60]
    | ⟨1, _⟩ => show win1_1.index t (1 : Fin 2) * 128 + 1 * (z 1).val = win1_6.index t (1 : Fin 2) * 128 + 1 * (z 1).val; rw [i11, i61]
  · intro z
    show V c main_arg7 (((cfg1.win 2).blk t).view.emb z) = V c main_arg7 z
    refine congrArg _ (funext fun a => Fin.ext ?_)
    match a with
    | ⟨0, _⟩ => show win1_2.index t (0 : Fin 2) * 256 + 1 * (z 0).val = (z 0).val; rw [i20]; omega
    | ⟨1, _⟩ => show win1_2.index t (1 : Fin 2) * 128 + 1 * (z 1).val = (z 1).val; rw [i21]; omega
  · intro z
    show V c main_arg8 (((cfg1.win 3).blk t).view.emb z) = V c main_arg8 z
    refine congrArg _ (funext fun a => Fin.ext ?_)
    match a with
    | ⟨0, _⟩ => show win1_3.index t (0 : Fin 1) * 128 + 1 * (z 0).val = (z 0).val; rw [i30]; omega
  · intro z
    show V c main_arg9 (((cfg1.win 4).blk t).view.emb z) = V c main_arg9 z
    refine congrArg _ (funext fun a => Fin.ext ?_)
    match a with
    | ⟨0, _⟩ => show win1_4.index t (0 : Fin 2) * 128 + 1 * (z 0).val = (z 0).val; rw [i40]; omega
    | ⟨1, _⟩ => show win1_4.index t (1 : Fin 2) * 128 + 1 * (z 1).val = (z 1).val; rw [i41]; omega
  · intro z
    show V c main_arg10 (((cfg1.win 5).blk t).view.emb z) = V c main_arg10 z
    refine congrArg _ (funext fun a => Fin.ext ?_)
    match a with
    | ⟨0, _⟩ => show win1_5.index t (0 : Fin 1) * 128 + 1 * (z 0).val = (z 0).val; rw [i50]; omega

/-- An index of the array is in point `t`'s block iff each coordinate is in the block's range on its axis. -/
private theorem mem_block (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v19).slice (win1_6.rect t)).set ↔ _
  rw [View.set_slice_whole, Rect.mem_set_unit]
  exact Iff.rfl

/-- Every index of the array is in some point's block: row `r` is written by point `r / 5000`. -/
private theorem covered (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 := ⟨⟨(i 0).val / 5000, by rw [hN]; omega⟩, rfl⟩
  refine ⟨t, flush1_6 t, ?_⟩
  rw [mem_block]
  obtain ⟨-, -, -, -, -, -, -, -, -, -, i60, i61⟩ := block_index t
  intro a
  match a with
  | ⟨0, _⟩ =>
    show win1_6.index t (0 : Fin 2) * 5000 ≤ (i 0).val ∧ (i 0).val < win1_6.index t (0 : Fin 2) * 5000 + 5000
    rw [i60, ht]; omega
  | ⟨1, _⟩ =>
    show win1_6.index t (1 : Fin 2) * 128 ≤ (i 1).val ∧ (i 1).val < win1_6.index t (1 : Fin 2) * 128 + 128
    rw [i61]; omega

/-- The output array once every grid point has written its block back. -/
theorem final (c : Dev nD) :
    (dat1 (F := Ideal) V c).arrAt 6 cfg1.N
      = Cert.Mlp.nodeArr (V c main_arg0) (V c main_v18) (V c main_arg7) (V c main_arg8) (V c main_arg9)
          (V c main_arg10) :=
  (dat1 V c).arrAt_eq_of_cover 6 _ (fun t _ => written_block V c t) covered

end Cert.KernelIdeal.NodeArray

end
-- ==== Proof.KernelHost.lean ====
/-
  The two results of the kernel program read back through its run.

  After the gather stage the edge kernel's region leaves the edge model of what it found in the buffer of the updated
  edge features; the averaging stage reads that buffer and the destination indices and writes the mean by destination;
  the node kernel's region leaves the node model of the node features and that mean in the buffer of the updated node
  features. No later stage writes a result's buffer, so the last segment boundary holds both results, as functions of
  the launch contents of the arguments.
-/
import proofs.«431072_j17910013624370_1_alg».proof.Proof.Gen.KernelIdeal.Frame
import proofs.«431072_j17910013624370_1_alg».proof.Proof.HostFns
import proofs.«431072_j17910013624370_1_alg».proof.Proof.HostGather
import proofs.«431072_j17910013624370_1_alg».proof.Proof.EdgeArray
import proofs.«431072_j17910013624370_1_alg».proof.Proof.NodeArray
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen Cert.KernelIdeal.HostFns

variable (m : (ℓ : Loc nD τ sig) → Buf (Elt Ideal) ℓ) (ρ : Dev nD → PrngReg)

open Cert.KernelIdeal.HostGather

/-- A buffer that no operation of a stretch writes holds after the stretch what it held before. -/
local macro "kept_by " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## At the edge kernel's exit -/

/-- The updated edge features as the edge kernel's region leaves them. -/
theorem W4_v6 (c : Dev nD) :
    W4 (F := Ideal) m ρ c (Proc.devRef .tc main_v6)
      = Cert.Mlp.edgeArr (takeOf (m ((c : Thread nD τ).loc main_arg0)) (srcOf (m ((c : Thread nD τ).loc main_arg1)))) (takeOf (m ((c : Thread nD τ).loc main_arg0)) (dstOf (m ((c : Thread nD τ).loc main_arg1))))
          (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr (F := Ideal) m ρ c 7).trans ?_
  rw [Cert.KernelIdeal.EdgeArray.final (V3 (F := Ideal) m ρ) c, found_src, found_dst]
  dsimp only [V3]
  rw [found_arg2, found_arg3, found_arg4, found_arg5, found_arg6]

theorem W4_v3 (c : Dev nD) : W4 (F := Ideal) m ρ c (Proc.devRef .tc main_v3) = dstOf (m ((c : Thread nD τ).loc main_arg1)) :=
  (W4_of_ne (F := Ideal) m ρ c main_v3 (by decide)).trans (found_idx m ρ c)

theorem W4_arg0 (c : Dev nD) : W4 (F := Ideal) m ρ c (Proc.devRef .tc main_arg0) = (m ((c : Thread nD τ).loc main_arg0)) :=
  (W4_of_ne (F := Ideal) m ρ c main_arg0 (by decide)).trans (found_arg0 m ρ c)
theorem W4_arg7 (c : Dev nD) : W4 (F := Ideal) m ρ c (Proc.devRef .tc main_arg7) = (m ((c : Thread nD τ).loc main_arg7)) :=
  (W4_of_ne (F := Ideal) m ρ c main_arg7 (by decide)).trans (found_arg7 m ρ c)
theorem W4_arg8 (c : Dev nD) : W4 (F := Ideal) m ρ c (Proc.devRef .tc main_arg8) = (m ((c : Thread nD τ).loc main_arg8)) :=
  (W4_of_ne (F := Ideal) m ρ c main_arg8 (by decide)).trans (found_arg8 m ρ c)
theorem W4_arg9 (c : Dev nD) : W4 (F := Ideal) m ρ c (Proc.devRef .tc main_arg9) = (m ((c : Thread nD τ).loc main_arg9)) :=
  (W4_of_ne (F := Ideal) m ρ c main_arg9 (by decide)).trans (found_arg9 m ρ c)
theorem W4_arg10 (c : Dev nD) : W4 (F := Ideal) m ρ c (Proc.devRef .tc main_arg10) = (m ((c : Thread nD τ).loc main_arg10)) :=
  (W4_of_ne (F := Ideal) m ρ c main_arg10 (by decide)).trans (found_arg10 m ρ c)

/-! ## After the averaging stage -/

set_option maxHeartbeats 4000000 in
/-- The mean of the updated edge features arriving at each node. -/
theorem W5_v18 (c : Dev nD) : W5 (F := Ideal) m ρ c (Proc.devRef .tc main_v18)
    = aggOf (W4 (F := Ideal) m ρ c (Proc.devRef .tc main_v6)) (W4 (F := Ideal) m ρ c (Proc.devRef .tc main_v3)) := by
  show StableHlo.after hostOps1 (W4 m ρ c) (Proc.devRef .tc main_v18) = _
  generalize W4 (F := Ideal) m ρ c = W
  after_results
  rfl

theorem W5_v6 (c : Dev nD) : W5 (F := Ideal) m ρ c (Proc.devRef .tc main_v6) = W4 (F := Ideal) m ρ c (Proc.devRef .tc main_v6) := by
  show StableHlo.after hostOps1 (W4 m ρ c) (Proc.devRef .tc main_v6) = _
  kept_by hostOps1
theorem W5_arg0 (c : Dev nD) : W5 (F := Ideal) m ρ c (Proc.devRef .tc main_arg0) = (m ((c : Thread nD τ).loc main_arg0)) := by
  refine Eq.trans ?_ (W4_arg0 m ρ c)
  show StableHlo.after hostOps1 (W4 m ρ c) (Proc.devRef .tc main_arg0) = _
  kept_by hostOps1
theorem W5_arg7 (c : Dev nD) : W5 (F := Ideal) m ρ c (Proc.devRef .tc main_arg7) = (m ((c : Thread nD τ).loc main_arg7)) := by
  refine Eq.trans ?_ (W4_arg7 m ρ c)
  show StableHlo.after hostOps1 (W4 m ρ c) (Proc.devRef .tc main_arg7) = _
  kept_by hostOps1
theorem W5_arg8 (c : Dev nD) : W5 (F := Ideal) m ρ c (Proc.devRef .tc main_arg8) = (m ((c : Thread nD τ).loc main_arg8)) := by
  refine Eq.trans ?_ (W4_arg8 m ρ c)
  show StableHlo.after hostOps1 (W4 m ρ c) (Proc.devRef .tc main_arg8) = _
  kept_by hostOps1
theorem W5_arg9 (c : Dev nD) : W5 (F := Ideal) m ρ c (Proc.devRef .tc main_arg9) = (m ((c : Thread nD τ).loc main_arg9)) := by
  refine Eq.trans ?_ (W4_arg9 m ρ c)
  show StableHlo.after hostOps1 (W4 m ρ c) (Proc.devRef .tc main_arg9) = _
  kept_by hostOps1
theorem W5_arg10 (c : Dev nD) : W5 (F := Ideal) m ρ c (Proc.devRef .tc main_arg10) = (m ((c : Thread nD τ).loc main_arg10)) := by
  refine Eq.trans ?_ (W4_arg10 m ρ c)
  show StableHlo.after hostOps1 (W4 m ρ c) (Proc.devRef .tc main_arg10) = _
  kept_by hostOps1

/-! ## At the run's last boundary -/

/-- The node kernel's region does not touch the updated edge features. -/
theorem W6_v6 (c : Dev nD) : W6 (F := Ideal) m ρ c (Proc.devRef .tc main_v6) = W4 (F := Ideal) m ρ c (Proc.devRef .tc main_v6) :=
  (W6_of_ne (F := Ideal) m ρ c main_v6 (by decide)).trans (W5_v6 m ρ c)

/-- The updated edge features: the edge model of the taken source rows, the taken destination rows and the edge
    attributes. -/
theorem out_edge (c : Dev nD) :
    W6 (F := Ideal) m ρ c (Proc.devRef .tc main_v6)
      = Cert.Mlp.edgeArr (takeOf (m ((c : Thread nD τ).loc main_arg0)) (srcOf (m ((c : Thread nD τ).loc main_arg1)))) (takeOf (m ((c : Thread nD τ).loc main_arg0)) (dstOf (m ((c : Thread nD τ).loc main_arg1))))
          (m ((c : Thread nD τ).loc main_arg2)) (m ((c : Thread nD τ).loc main_arg3)) (m ((c : Thread nD τ).loc main_arg4)) (m ((c : Thread nD τ).loc main_arg5)) (m ((c : Thread nD τ).loc main_arg6)) :=
  (W6_v6 m ρ c).trans (W4_v6 m ρ c)

/-- The updated node features: the node model of the node features and the mean of the updated edge features arriving
    at each node. -/
theorem out_node (c : Dev nD) :
    W6 (F := Ideal) m ρ c (Proc.devRef .tc main_v19)
      = Cert.Mlp.nodeArr (m ((c : Thread nD τ).loc main_arg0)) (aggOf (W6 (F := Ideal) m ρ c (Proc.devRef .tc main_v6)) (dstOf (m ((c : Thread nD τ).loc main_arg1))))
          (m ((c : Thread nD τ).loc main_arg7)) (m ((c : Thread nD τ).loc main_arg8)) (m ((c : Thread nD τ).loc main_arg9)) (m ((c : Thread nD τ).loc main_arg10)) := by
  refine (W6_arr (F := Ideal) m ρ c 6).trans ?_
  rw [Cert.KernelIdeal.NodeArray.final (V5 (F := Ideal) m ρ) c, W6_v6]
  have hagg : V5 (F := Ideal) m ρ c main_v18 = aggOf (W4 (F := Ideal) m ρ c (Proc.devRef .tc main_v6)) (dstOf (m ((c : Thread nD τ).loc main_arg1))) :=
    (W5_v18 m ρ c).trans (congrArg _ (W4_v3 m ρ c))
  rw [hagg]
  dsimp only [V5]
  rw [W5_arg0, W5_arg7, W5_arg8, W5_arg9, W5_arg10]

end Cert.KernelIdeal.HostValue

end
-- ==== Proof.RefRead.lean ====
/-
  The reference's two results read through its generated run: the updated edge features are the edge model of the
  gathered source rows, the gathered destination rows and the edge attributes; the updated node features are the node
  model of the node features and the mean of the updated edge features arriving at each node.
-/
import proofs.«431072_j17910013624370_1_alg».proof.Proof.Gen.ReferenceIdeal.Read
import proofs.«431072_j17910013624370_1_alg».proof.Proof.MlpSpec
import proofs.«431072_j17910013624370_1_alg».proof.Proof.HostFns
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read

/-- The three row arrays laid side by side, read at row `r` and column `c`. -/
private theorem cat_edge_read (a b e : S600000x128.Idx → EReal) (r : Fin 600000) (c : Fin 384) :
    concatenate (α := EReal) S600000x384 1 [⟨S600000x128, a⟩, ⟨S600000x128, b⟩, ⟨S600000x128, e⟩]
        concatenates_S600000x128_S600000x128_S600000x128_S600000x384_d1 (ix2 r c)
      = Cert.Mlp.cat3 (fun q => a (ix2 r q)) (fun q => b (ix2 r q)) (fun q => e (ix2 r q)) c := by
  unfold Cert.Mlp.cat3
  by_cases h : c.val < 128
  · rw [dif_pos h]
    exact concatenate_apply_piece (t := S600000x384) 1 _ _ (ix2 r c) 0 (by show 0 < 3; omega) S600000x128 a rfl rfl 0 rfl
      (ix2 r ⟨c.val, h⟩)
      (fun d hd => by
        match d with
        | ⟨0, _⟩ => rfl
        | ⟨1, _⟩ => exact absurd rfl hd)
      (by show 0 + c.val = c.val; omega)
  · rw [dif_neg h]
    by_cases h2 : c.val < 256
    · rw [dif_pos h2]
      exact concatenate_apply_piece (t := S600000x384) 1 _ _ (ix2 r c) 1 (by show 1 < 3; omega) S600000x128 b rfl rfl 128 rfl
        (ix2 r ⟨c.val - 128, by omega⟩)
        (fun d hd => by
          match d with
          | ⟨0, _⟩ => rfl
          | ⟨1, _⟩ => exact absurd rfl hd)
        (by show 128 + (c.val - 128) = c.val; omega)
    · rw [dif_neg h2]
      exact concatenate_apply_piece (t := S600000x384) 1 _ _ (ix2 r c) 2 (by show 2 < 3; omega) S600000x128 e rfl rfl 256 rfl
        (ix2 r ⟨c.val - 256, by have := c.isLt; omega⟩)
        (fun d hd => by
          match d with
          | ⟨0, _⟩ => rfl
          | ⟨1, _⟩ => exact absurd rfl hd)
        (by show 256 + (c.val - 256) = c.val; omega)

/-- The edge model's hidden layer at row `r`, unit `k`: the rectified first layer of the three rows side by side. -/
private theorem edge_hidden (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S384x128, .f32⟩ : BufTy).Contents (Elt Ideal)) (x4 : (⟨S128, .f32⟩ : BufTy).Contents (Elt Ideal)) (r : Fin 600000) (k : Fin 128) :
    val_main_v23 (F := Ideal) x0 x1 x2 x3 x4 (ix2 r k)
      = max ((∑ c : Fin 384, Cert.Mlp.cat3 (fun q => val_main_v10 (F := Ideal) x0 x1 (ix2 r q))
              (fun q => val_main_v17 (F := Ideal) x0 x1 (ix2 r q)) (fun q => x2 (ix2 r q)) c * x3 (ix2 c k)) + x4 (ix1 k)) 0 := by
  rw [val_main_v23_apply, val_main_v22_apply, val_main_v19_apply, val_main_v21_apply, val_main_v20_apply,
    val_main_call0_v0_apply, val_main_call0_cst_apply, Ideal.maximumf_def, Ideal.addf_def, Ideal.ofBits_def,
    Ideal.ofBits_zero_f32]
  have e1 : idx_main_v20 (idx_main_v21 (ix2 r k)) = ix1 k :=
    funext fun a => Fin.ext (by match a with | ⟨0, _⟩ => rfl)
  rw [e1]
  refine congrArg (fun s : EReal => max (s + x4 (ix1 k)) 0) (Finset.sum_congr rfl fun c _ => ?_)
  have e2 : lidx_main_v19 (ix2 r k) c = ix2 r c :=
    funext fun a => Fin.ext (by match a with | ⟨0, _⟩ => rfl | ⟨1, _⟩ => rfl)
  have e3 : ridx_main_v19 (ix2 r k) c = ix2 c k :=
    funext fun a => Fin.ext (by match a with | ⟨0, _⟩ => rfl | ⟨1, _⟩ => rfl)
  rw [e2, e3]
  unfold val_main_v18
  rw [cat_edge_read]

/-- The updated edge features, all rows: the edge model of the two gathered row arrays and the edge attributes. -/
theorem edge_eq (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v27 (F := Ideal) x0 x1 x2 x3 x4 x5 x6
      = Cert.Mlp.edgeArr (val_main_v10 (F := Ideal) x0 x1) (val_main_v17 (F := Ideal) x0 x1) x2 x3 x4 x5 x6 := by
  funext i
  obtain ⟨r, j, rfl⟩ : ∃ (r : Fin 600000) (j : Fin 128), i = ix2 r j := ⟨i 0, i 1, eq_ix2 i⟩
  rw [Cert.Mlp.edgeArr_apply]
  unfold Cert.Mlp.row
  rw [val_main_v27_apply, val_main_v24_apply, val_main_v26_apply, val_main_v25_apply, Ideal.addf_def]
  have e1 : idx_main_v25 (idx_main_v26 (ix2 r j)) = ix1 j :=
    funext fun a => Fin.ext (by match a with | ⟨0, _⟩ => rfl)
  rw [e1]
  refine congrArg (fun s : EReal => s + x6 (ix1 j)) (Finset.sum_congr rfl fun k _ => ?_)
  have e2 : lidx_main_v24 (ix2 r j) k = ix2 r k :=
    funext fun a => Fin.ext (by match a with | ⟨0, _⟩ => rfl | ⟨1, _⟩ => rfl)
  have e3 : ridx_main_v24 (ix2 r j) k = ix2 k j :=
    funext fun a => Fin.ext (by match a with | ⟨0, _⟩ => rfl | ⟨1, _⟩ => rfl)
  rw [e2, e3, edge_hidden]

/-- The two row arrays laid side by side, read at row `r` and column `c`. -/
private theorem cat_node_read (a b : S50000x128.Idx → EReal) (r : Fin 50000) (c : Fin 256) :
    concatenate (α := EReal) S50000x256 1 [⟨S50000x128, a⟩, ⟨S50000x128, b⟩]
        concatenates_S50000x128_S50000x128_S50000x256_d1 (ix2 r c)
      = Cert.Mlp.cat2 (fun q => a (ix2 r q)) (fun q => b (ix2 r q)) c := by
  unfold Cert.Mlp.cat2
  by_cases h : c.val < 128
  · rw [dif_pos h]
    exact concatenate_apply_piece (t := S50000x256) 1 _ _ (ix2 r c) 0 (by show 0 < 2; omega) S50000x128 a rfl rfl 0 rfl
      (ix2 r ⟨c.val, h⟩)
      (fun d hd => by
        match d with
        | ⟨0, _⟩ => rfl
        | ⟨1, _⟩ => exact absurd rfl hd)
      (by show 0 + c.val = c.val; omega)
  · rw [dif_neg h]
    exact concatenate_apply_piece (t := S50000x256) 1 _ _ (ix2 r c) 1 (by show 1 < 2; omega) S50000x128 b rfl rfl 128 rfl
      (ix2 r ⟨c.val - 128, by have := c.isLt; omega⟩)
      (fun d hd => by
        match d with
        | ⟨0, _⟩ => rfl
        | ⟨1, _⟩ => exact absurd rfl hd)
      (by show 128 + (c.val - 128) = c.val; omega)

/-- The node model's hidden layer at row `r`, unit `k`: the rectified first layer of the two rows side by side. -/
private theorem node_hidden (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (r : Fin 50000) (k : Fin 128) :
    val_main_v45 (F := Ideal) x0 x1 x2 x3 x4 x5 x6 x7 x8 (ix2 r k)
      = max ((∑ c : Fin 256, Cert.Mlp.cat2 (fun q => x0 (ix2 r q))
              (fun q => val_main_v39 (F := Ideal) x0 x1 x2 x3 x4 x5 x6 (ix2 r q)) c * x7 (ix2 c k)) + x8 (ix1 k)) 0 := by
  rw [val_main_v45_apply, val_main_v44_apply, val_main_v41_apply, val_main_v43_apply, val_main_v42_apply,
    val_main_call1_v0_apply, val_main_call1_cst_apply, Ideal.maximumf_def, Ideal.addf_def, Ideal.ofBits_def,
    Ideal.ofBits_zero_f32]
  have e1 : idx_main_v42 (idx_main_v43 (ix2 r k)) = ix1 k :=
    funext fun a => Fin.ext (by match a with | ⟨0, _⟩ => rfl)
  rw [e1]
  refine congrArg (fun s : EReal => max (s + x8 (ix1 k)) 0) (Finset.sum_congr rfl fun c _ => ?_)
  have e2 : lidx_main_v41 (ix2 r k) c = ix2 r c :=
    funext fun a => Fin.ext (by match a with | ⟨0, _⟩ => rfl | ⟨1, _⟩ => rfl)
  have e3 : ridx_main_v41 (ix2 r k) c = ix2 c k :=
    funext fun a => Fin.ext (by match a with | ⟨0, _⟩ => rfl | ⟨1, _⟩ => rfl)
  rw [e2, e3]
  unfold val_main_v40
  rw [cat_node_read]

/-- The updated node features, all rows: the node model of the node features and the aggregated edge features. -/
theorem node_eq (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v49 (F := Ideal) x0 x1 x2 x3 x4 x5 x6 x7 x8 x9 x10
      = Cert.Mlp.nodeArr x0 (val_main_v39 (F := Ideal) x0 x1 x2 x3 x4 x5 x6) x7 x8 x9 x10 := by
  funext i
  obtain ⟨r, j, rfl⟩ : ∃ (r : Fin 50000) (j : Fin 128), i = ix2 r j := ⟨i 0, i 1, eq_ix2 i⟩
  rw [Cert.Mlp.nodeArr_apply]
  unfold Cert.Mlp.row
  rw [val_main_v49_apply, val_main_v46_apply, val_main_v48_apply, val_main_v47_apply, Ideal.addf_def]
  have e1 : idx_main_v47 (idx_main_v48 (ix2 r j)) = ix1 j :=
    funext fun a => Fin.ext (by match a with | ⟨0, _⟩ => rfl)
  rw [e1]
  refine congrArg (fun s : EReal => s + x10 (ix1 j)) (Finset.sum_congr rfl fun k _ => ?_)
  have e2 : lidx_main_v46 (ix2 r j) k = ix2 r k :=
    funext fun a => Fin.ext (by match a with | ⟨0, _⟩ => rfl | ⟨1, _⟩ => rfl)
  have e3 : ridx_main_v46 (ix2 r j) k = ix2 k j :=
    funext fun a => Fin.ext (by match a with | ⟨0, _⟩ => rfl | ⟨1, _⟩ => rfl)
  rw [e2, e3, node_hidden]

/-- The reference's source rows are the table's rows at the wrapped source indices. -/
theorem rows_src (x0 : (⟨S50000x128, .f32⟩ : BufTy).Contents (Elt Ideal)) (x1 : (⟨S2x600000, .i32⟩ : BufTy).Contents (Elt Ideal)) :
    val_main_v10 (F := Ideal) x0 x1 = Cert.KernelIdeal.HostFns.rowsOf x0 (Cert.KernelIdeal.HostFns.srcOf x1) := by
  unfold val_main_v10 val_main_v9 val_main_v8 val_main_v7 val_main_v6 val_main_v5 val_main_v4 val_main_v1 val_main_v0 val_main_c val_main_c_0
  unfold Cert.KernelIdeal.HostFns.rowsOf Cert.KernelIdeal.HostFns.wrap Cert.KernelIdeal.HostFns.wrapped Cert.KernelIdeal.HostFns.srcOf
  rfl

/-- The reference's destination rows are the table's rows at the wrapped destination indices. -/
theorem rows_dst (x0 : (⟨S50000x128, .f32⟩ : BufTy).Contents (Elt Ideal)) (x1 : (⟨S2x600000, .i32⟩ : BufTy).Contents (Elt Ideal)) :
    val_main_v17 (F := Ideal) x0 x1 = Cert.KernelIdeal.HostFns.rowsOf x0 (Cert.KernelIdeal.HostFns.dstOf x1) := by
  unfold val_main_v17 val_main_v16 val_main_v15 val_main_v14 val_main_v13 val_main_v12 val_main_v11 val_main_v3 val_main_v2 val_main_c_1 val_main_c_2
  unfold Cert.KernelIdeal.HostFns.rowsOf Cert.KernelIdeal.HostFns.wrap Cert.KernelIdeal.HostFns.wrapped Cert.KernelIdeal.HostFns.dstOf
  rfl

/-- The reference's aggregated edge features are the mean, by destination, of its updated edge features. -/
theorem agg_eq (x0 : (⟨S50000x128, .f32⟩ : BufTy).Contents (Elt Ideal)) (x1 : (⟨S2x600000, .i32⟩ : BufTy).Contents (Elt Ideal)) (x2 : (⟨S600000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v39 (F := Ideal) x0 x1 x2 x3 x4 x5 x6
      = Cert.KernelIdeal.HostFns.aggOf (val_main_v27 (F := Ideal) x0 x1 x2 x3 x4 x5 x6) (Cert.KernelIdeal.HostFns.dstOf x1) := by
  unfold val_main_v39 val_main_v38 val_main_v37 val_main_v36 val_main_v35 val_main_v34 val_main_v33 val_main_v32 val_main_v31 val_main_v30 val_main_v29 val_main_v28 val_main_v3 val_main_v2 val_main_cst val_main_cst_3 val_main_cst_4 val_main_cst_5
  unfold Cert.KernelIdeal.HostFns.aggOf Cert.KernelIdeal.HostFns.dstOf
  generalize val_main_v27 (F := Ideal) x0 x1 x2 x3 x4 x5 x6 = e
  rfl

end Cert.ReferenceIdeal.RefValue

end
-- ==== Proof.IndexRange.lean ====
/-
  What the precondition says about the edge list, and what follows for the row gathers: every entry is a NumPy-style row
  index of the 50000-row node table (−50000 ≤ i < 50000), so every wrapped index lies in [0, 49999], no gathered row is
  replaced by the fill pattern, and the kernel program's `take` is the plain row gather.
-/
import proofs.«431072_j17910013624370_1_alg».proof.Proof.Gen.Pre_finite_inputs
import proofs.«431072_j17910013624370_1_alg».proof.Proof.HostFns
import Idealize.ShloMosaic.Lib.ReduceAll
import Idealize.ShloMosaic.Lib.StableHlo.Predicate
import Idealize.ShloMosaic.Lib.ValueIdx
import Idealize.ShloMosaic.Lib.Pipeline.Value

noncomputable section

namespace Cert.IndexRange

open Idealize.ShloMosaic Idealize.ShloMosaic.ValueIdx
open Cert.KernelIdeal Cert.KernelIdeal.HostFns

/-! ## Words: a row index of a 50000-row table, made non-negative -/

private theorem toInt_zero : (0#32 : BitVec 32).toInt = 0 := by decide
private theorem toInt_rows : (50000#32 : BitVec 32).toInt = 50000 := by decide
private theorem toInt_last : (49999#32 : BitVec 32).toInt = 49999 := by decide
private theorem toInt_negRows : (4294917296#32 : BitVec 32).toInt = -50000 := by decide

/-- A signed word in [−50000, 50000), with 50000 added when it is below zero, lies in [0, 49999]: the sum does not
    wrap, since −50000 + 50000 = 0 and −1 + 50000 = 49999 are far inside the signed 32-bit range. -/
private theorem wrap_word (w : BitVec 32) (hlo : (-50000 : Int) ≤ w.toInt) (hhi : w.toInt < 50000) :
    IntOp.cmpi .sge (Scalar.select (IntOp.cmpi .slt w 0#32) (IntOp.addi w 50000#32) w) 0#32 = 1#1 ∧
    IntOp.cmpi .sle (Scalar.select (IntOp.cmpi .slt w 0#32) (IntOp.addi w 50000#32) w) 49999#32 = 1#1 := by
  rw [IntOp.cmpi_sge, IntOp.cmpi_sle, toInt_zero, toInt_last]
  by_cases hneg : w.toInt < 0
  · have hc : IntOp.cmpi .slt w 0#32 = 1#1 := by rw [IntOp.cmpi_slt, toInt_zero]; exact hneg
    rw [hc, select_one]
    have hadd : (IntOp.addi w 50000#32).toInt = w.toInt + 50000 := by
      show (w + 50000#32).toInt = _
      rw [BitVec.toInt_add, toInt_rows]
      exact Int.bmod_eq_of_le_mul_two (by omega) (by omega)
    rw [hadd]; omega
  · have hc : IntOp.cmpi .slt w 0#32 = 0#1 := by
      apply eq_zero_of_ne_one
      rw [IntOp.cmpi_slt, toInt_zero]; exact hneg
    rw [hc, select_zero]; omega

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-! ## The precondition read back: every entry of the edge list is a row index -/

private instance : Subsingleton Cert.Pre_finite_inputs.S_.Idx := ⟨fun a b => funext fun d => d.elim0⟩

/-- The last conjunct of the precondition, at one entry of the edge list. -/
private theorem entry_range (a0 : FVec Ideal S50000x128 .f32) (a1 : IVec S2x600000 32) (a2 : FVec Ideal S600000x128 .f32) (a3 : FVec Ideal S384x128 .f32) (a4 : FVec Ideal S128 .f32) (a5 : FVec Ideal S128x128 .f32) (a6 : FVec Ideal S128 .f32) (a7 : FVec Ideal S256x128 .f32) (a8 : FVec Ideal S128 .f32) (a9 : FVec Ideal S128x128 .f32) (a10 : FVec Ideal S128 .f32)
    (h : Cert.Pre_finite_inputs.fn (F := Ideal) a0 a1 a2 a3 a4 a5 a6 a7 a8 a9 a10 = (fun _ => 1#1))
    (k : S2x600000.Idx) : (-50000 : Int) ≤ (a1 k).toInt ∧ (a1 k).toInt < 50000 := by
  have h0 := congrFun h ix0
  dsimp only [Cert.Pre_finite_inputs.fn, Cert.Pre_finite_inputs.fn_part1, Cert.Pre_finite_inputs.fn_part2,
    Cert.Pre_finite_inputs.fn_part3] at h0
  -- the outermost `and`: its right operand is the reduction over the edge list
  have h1 := (IntOp.andi_eq_one.1 h0).2
  have hk := Host.reduce_andi_all _ _ _ _ _ h1 k
  obtain ⟨hge, hlt⟩ := IntOp.andi_eq_one.1 hk
  have hge' : (4294917296#32 : BitVec 32).toInt ≤ (a1 k).toInt := IntOp.cmpi_sge.1 hge
  have hlt' : (a1 k).toInt < (50000#32 : BitVec 32).toInt := IntOp.cmpi_slt.1 hlt
  rw [toInt_negRows] at hge'
  rw [toInt_rows] at hlt'
  exact ⟨hge', hlt'⟩

/-! ## The fill never applies -/

/-- With every index a row index, every wrapped index is inside the table, so the take is the gather. -/
private theorem take_eq_rows (a0 : FVec Ideal S50000x128 .f32) (i : IVec S600000 32)
    (hi : ∀ e, (-50000 : Int) ≤ (i e).toInt ∧ (i e).toInt < 50000) : takeOf a0 i = rowsOf a0 i := by
  -- a wrapped index, as a column entry, is the wrapped word of one entry of `i`
  have hw : ∀ j, ∃ e, wrap i j
      = Scalar.select (IntOp.cmpi .slt (i e) 0#32) (IntOp.addi (i e) 50000#32) (i e) := fun j => ⟨_, rfl⟩
  have hin : inRows i = fun _ => 1#1 := by
    funext e
    unfold inRows
    rw [Host.reduce_eq_foldl]
    refine foldl_andi_one _ (fun j => ?_) _
    obtain ⟨e', he'⟩ := hw j
    obtain ⟨h0, h1⟩ := wrap_word (i e') (hi e').1 (hi e').2
    rw [← he'] at h0 h1
    exact IntOp.andi_eq_one.2 ⟨h0, h1⟩
  funext j
  unfold takeOf
  rw [select_apply, hin]
  exact select_one _ _

/-- Under the precondition the fill never applies: the source rows taken are the rows gathered. -/
theorem take_src (a0 : FVec Ideal S50000x128 .f32) (a1 : IVec S2x600000 32) (a2 : FVec Ideal S600000x128 .f32) (a3 : FVec Ideal S384x128 .f32) (a4 : FVec Ideal S128 .f32) (a5 : FVec Ideal S128x128 .f32) (a6 : FVec Ideal S128 .f32) (a7 : FVec Ideal S256x128 .f32) (a8 : FVec Ideal S128 .f32) (a9 : FVec Ideal S128x128 .f32) (a10 : FVec Ideal S128 .f32)
    (h : Cert.Pre_finite_inputs.fn (F := Ideal) a0 a1 a2 a3 a4 a5 a6 a7 a8 a9 a10 = (fun _ => 1#1)) :
    takeOf a0 (srcOf a1) = rowsOf a0 (srcOf a1) :=
  -- an entry of row 0 of the edge list is an entry of the edge list
  take_eq_rows a0 (srcOf a1) fun _ => entry_range a0 a1 a2 a3 a4 a5 a6 a7 a8 a9 a10 h _

/-- Under the precondition the fill never applies: the destination rows taken are the rows gathered. -/
theorem take_dst (a0 : FVec Ideal S50000x128 .f32) (a1 : IVec S2x600000 32) (a2 : FVec Ideal S600000x128 .f32) (a3 : FVec Ideal S384x128 .f32) (a4 : FVec Ideal S128 .f32) (a5 : FVec Ideal S128x128 .f32) (a6 : FVec Ideal S128 .f32) (a7 : FVec Ideal S256x128 .f32) (a8 : FVec Ideal S128 .f32) (a9 : FVec Ideal S128x128 .f32) (a10 : FVec Ideal S128 .f32)
    (h : Cert.Pre_finite_inputs.fn (F := Ideal) a0 a1 a2 a3 a4 a5 a6 a7 a8 a9 a10 = (fun _ => 1#1)) :
    takeOf a0 (dstOf a1) = rowsOf a0 (dstOf a1) :=
  -- an entry of row 1 of the edge list is an entry of the edge list
  take_eq_rows a0 (dstOf a1) fun _ => entry_range a0 a1 a2 a3 a4 a5 a6 a7 a8 a9 a10 h _

end Cert.IndexRange

end
-- ==== Proof.lean ====
/-
  A message-passing layer on a graph of 50000 nodes and 600000 edges, kernel program against reference.

  Both programs gather each edge's source and destination node rows, run the edge model (a two-layer perceptron on the
  two gathered rows and the edge's attributes side by side), average the updated edge rows arriving at each node, and
  run the node model (a two-layer perceptron on the node's row and that average side by side). They return the updated
  node features and the updated edge features.

  The kernel program runs the two perceptrons as row-blocked kernels (4000 and 5000 rows a grid point, the weights
  whole at every point, operands narrowed to bfloat16 before each product) and gathers with `take`, which fills a row
  whose index is out of range; the reference multiplies whole arrays and gathers by plain indexing. Over the extended
  reals a change of float format is the identity and a product accumulated from zero is the plain sum, so each
  perceptron is the same function of a row on both sides (Proof/MlpSpec.lean), whatever the blocking: Proof/EdgeBody.lean
  and Proof/NodeBody.lean read a kernel block at an element, Proof/EdgeArray.lean and Proof/NodeArray.lean assemble the
  blocks into the arrays, Proof/RefRead.lean reads the reference. The precondition keeps every entry of the edge list a
  NumPy-style row index (−50000 ≤ i < 50000), so no gathered row is filled and the two gathers agree
  (Proof/IndexRange.lean). The averaging stage is the same host operations on both sides and is carried as one function
  (Proof/HostFns.lean); Proof/KernelRun.lean and Proof/KernelHost.lean read the kernel program's two results off its run.
  No law of arithmetic beyond these is used, and finiteness of the float inputs is not needed.
-/
import proofs.«431072_j17910013624370_1_alg».proof.Defs
import proofs.«431072_j17910013624370_1_alg».proof.Proof.Gen.Kernel
import proofs.«431072_j17910013624370_1_alg».proof.Proof.Gen.Kernel.Frame
import proofs.«431072_j17910013624370_1_alg».proof.Proof.Gen.KernelIdeal
import proofs.«431072_j17910013624370_1_alg».proof.Proof.Gen.KernelIdeal.Frame
import proofs.«431072_j17910013624370_1_alg».proof.Proof.Gen.ReferenceIdeal
import proofs.«431072_j17910013624370_1_alg».proof.Proof.Gen.ReferenceIdeal.Run
import proofs.«431072_j17910013624370_1_alg».proof.Proof.Gen.ReferenceIdeal.Read
import proofs.«431072_j17910013624370_1_alg».proof.Proof.Gen.Pre_finite_inputs
import proofs.«431072_j17910013624370_1_alg».proof.Proof.KernelRun
import proofs.«431072_j17910013624370_1_alg».proof.Proof.KernelHost
import proofs.«431072_j17910013624370_1_alg».proof.Proof.RefRead
import proofs.«431072_j17910013624370_1_alg».proof.Proof.IndexRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel program was idealized. -/
theorem preserves : Cert.preserves_Kernel_KernelIdeal := trivial

/-- From memories that agree on the eleven arguments the two programs end with the same updated node features and the
    same updated edge features: on each side the edge features are the edge model of the gathered source rows, the
    gathered destination rows and the edge attributes, and the node features the node model of the node features and the
    mean of those edge features by destination. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v19),
    fun c => Cert.KernelIdeal.Gen.W6 (F := Ideal) m ρ c (Proc.devRef .tc Cert.KernelIdeal.main_v6),
    Cert.KernelIdeal.ValueRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    have hs := Cert.IndexRange.take_src (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (hpre c)
    have hd := Cert.IndexRange.take_dst (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (hpre c)
    beta_reduce
    rw [Cert.ReferenceIdeal.Read.val_main_v49_eq, Cert.ReferenceIdeal.RefValue.node_eq, Cert.ReferenceIdeal.RefValue.agg_eq,
      Cert.ReferenceIdeal.RefValue.edge_eq, Cert.ReferenceIdeal.RefValue.rows_src, Cert.ReferenceIdeal.RefValue.rows_dst,
      e0, e1, e2, e3, e4, e5, e6, e7, e8, e9, e10,
      Cert.KernelIdeal.HostValue.out_node, Cert.KernelIdeal.HostValue.out_edge]
    exact congrArg₂ (fun s d => Cert.Mlp.nodeArr _ (Cert.KernelIdeal.HostFns.aggOf (Cert.Mlp.edgeArr s d _ _ _ _ _) _) _ _ _ _) hs.symm hd.symm
  · obtain ⟨e0, e1, e2, e3, e4, e5, e6, e7, e8, e9, e10⟩ := hagree c
    have hs := Cert.IndexRange.take_src (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (hpre c)
    have hd := Cert.IndexRange.take_dst (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (hpre c)
    refine (Cert.ReferenceIdeal.Read.val_main_v27_eq _ _ _ _ _ _ _).trans ?_
    beta_reduce
    rw [Cert.ReferenceIdeal.RefValue.edge_eq, Cert.ReferenceIdeal.RefValue.rows_src, Cert.ReferenceIdeal.RefValue.rows_dst,
      e0, e1, e2, e3, e4, e5, e6, Cert.KernelIdeal.HostValue.out_edge]
    exact congrArg₂ (fun s d => Cert.Mlp.edgeArr s d _ _ _ _ _) hs.symm hd.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
